-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S256 : Shape := ⟨1, ![256]⟩
abbrev S256x3 : Shape := ⟨2, ![256, 3]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S256 : S_.BroadcastsInDim S256 (![] : Fin 0 → Fin S256.rank)
  reducesTo_S256_S_d0 : S256.ReducesTo [0] S_
  bcast_S_S256x3 : S_.BroadcastsInDim S256x3 (![] : Fin 0 → Fin S256x3.rank)
  reducesTo_S256x3_S_d0_1 : S256x3.ReducesTo [0, 1] S_

variable [Facts]

def fn_part2 {F : FTy → Type} [FloatOps F] (main_arg7 : FVec F S256 .f32) (main_arg8 : FVec F S256x3 .f32) (main_arg9 : FVec F S256x3 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x3 .f32 := Host.absf main_arg8
  let main_cst_14 : FVec F S_ .f32 := constant S_ .f32 0x7F800000#32
  let main_v40 : FVec F S256x3 .f32 := broadcastInDim S256x3 ![] bcast_S_S256x3 main_cst_14
  let main_v41 : IVec S256x3 1 := cmpf .olt main_v39 main_v40
  let main_c_15 : IVec S_ 1 := constantI S_ 1 1#1
  let main_v42 : IVec S_ 1 := (fun x v => Host.reduce IntOp.andi x v reducesTo_S256x3_S_d0_1 h_S_) main_v41 main_c_15
  let main_v43 : IVec S_ 1 := andi main_v38 main_v42
  let main_v44 : FVec F S256x3 .f32 := Host.absf main_arg9
  let main_cst_16 : FVec F S_ .f32 := constant S_ .f32 0x7F800000#32
  let main_v45 : FVec F S256x3 .f32 := broadcastInDim S256x3 ![] bcast_S_S256x3 main_cst_16
  let main_v46 : IVec S256x3 1 := cmpf .olt main_v44 main_v45
  let main_c_17 : IVec S_ 1 := constantI S_ 1 1#1
  let main_v47 : IVec S_ 1 := (fun x v => Host.reduce IntOp.andi x v reducesTo_S256x3_S_d0_1 h_S_) main_v46 main_c_17
  let main_v48 : IVec S_ 1 := andi main_v43 main_v47
  main_v48

def fn_part1 {F : FTy → Type} [FloatOps F] (main_arg4 : FVec F S256 .f32) (main_arg5 : FVec F S256 .f32) (main_arg6 : FVec F S256 .f32) (main_arg7 : FVec F S256 .f32) (main_arg8 : FVec F S256x3 .f32) (main_arg9 : FVec F S256x3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S512x512 .f32) (main_arg1 : FVec F S512x512 .f32) (main_arg2 : FVec F S256 .f32) (main_arg3 : FVec F S256 .f32) (main_arg4 : FVec F S256 .f32) (main_arg5 : FVec F S256 .f32) (main_arg6 : FVec F S256 .f32) (main_arg7 : FVec F S256 .f32) (main_arg8 : FVec F S256x3 .f32) (main_arg9 : FVec F S256x3 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S512x512 : Shape := ⟨2, ![512, 512]⟩
abbrev S256 : Shape := ⟨1, ![256]⟩
abbrev S256x3 : Shape := ⟨2, ![256, 3]⟩
abbrev S_ : Shape := ⟨0, ![]⟩
abbrev S256x1 : Shape := ⟨2, ![256, 1]⟩
abbrev S512x3x512 : Shape := ⟨3, ![512, 3, 512]⟩
abbrev S16x512 : Shape := ⟨2, ![16, 512]⟩
abbrev S16x3x512 : Shape := ⟨3, ![16, 3, 512]⟩
abbrev S1x512 : Shape := ⟨2, ![1, 512]⟩
abbrev S512 : Shape := ⟨1, ![512]⟩
abbrev S256x512 : Shape := ⟨2, ![256, 512]⟩
abbrev S1x1x512 : Shape := ⟨3, ![1, 1, 512]⟩
abbrev S3x512x512 : Shape := ⟨3, ![3, 512, 512]⟩

abbrev nBuf : Space → Nat
  | .hbm => 151
  | .vmem => 20
  | .smem => 0
  | _ => 0

abbrev hbmTy0_0 (i : Nat) : BufTy := match i % 128 with
  | 0 => ⟨S512x512, .f32⟩
  | 1 => ⟨S512x512, .f32⟩
  | 2 => ⟨S256, .f32⟩
  | 3 => ⟨S256, .f32⟩
  | 4 => ⟨S256, .f32⟩
  | 5 => ⟨S256, .f32⟩
  | 6 => ⟨S256, .f32⟩
  | 7 => ⟨S256, .f32⟩
  | 8 => ⟨S256x3, .f32⟩
  | 9 => ⟨S256x3, .f32⟩
  | 10 => ⟨S_, .f32⟩
  | 11 => ⟨S_, .f32⟩
  | 12 => ⟨S_, .f32⟩
  | 13 => ⟨S256, .f32⟩
  | 14 => ⟨S256, .f32⟩
  | 15 => ⟨S_, .f32⟩
  | 16 => ⟨S256, .f32⟩
  | 17 => ⟨S256, .f32⟩
  | 18 => ⟨S_, .f32⟩
  | 19 => ⟨S_, .f32⟩
  | 20 => ⟨S_, .f32⟩
  | 21 => ⟨S256, .f32⟩
  | 22 => ⟨S256, .f32⟩
  | 23 => ⟨S_, .f32⟩
  | 24 => ⟨S256, .f32⟩
  | 25 => ⟨S256, .f32⟩
  | 26 => ⟨S_, .f32⟩
  | 27 => ⟨S_, .f32⟩
  | 28 => ⟨S_, .f32⟩
  | 29 => ⟨S256, .f32⟩
  | 30 => ⟨S256, .f32⟩
  | 31 => ⟨S_, .f32⟩
  | 32 => ⟨S256, .f32⟩
  | 33 => ⟨S256, .f32⟩
  | 34 => ⟨S_, .f32⟩
  | 35 => ⟨S_, .f32⟩
  | 36 => ⟨S_, .f32⟩
  | 37 => ⟨S256, .f32⟩
  | 38 => ⟨S256, .f32⟩
  | 39 => ⟨S_, .f32⟩
  | 40 => ⟨S256, .f32⟩
  | 41 => ⟨S256, .f32⟩
  | 42 => ⟨S_, .f32⟩
  | 43 => ⟨S_, .f32⟩
  | 44 => ⟨S_, .f32⟩
  | 45 => ⟨S256, .f32⟩
  | 46 => ⟨S256, .f32⟩
  | 47 => ⟨S_, .f32⟩
  | 48 => ⟨S256, .f32⟩
  | 49 => ⟨S256, .f32⟩
  | 50 => ⟨S_, .f32⟩
  | 51 => ⟨S_, .f32⟩
  | 52 => ⟨S_, .f32⟩
  | 53 => ⟨S256, .f32⟩
  | 54 => ⟨S256, .f32⟩
  | 55 => ⟨S_, .f32⟩
  | 56 => ⟨S256, .f32⟩
  | 57 => ⟨S256, .f32⟩
  | 58 => ⟨S_, .f32⟩
  | 59 => ⟨S_, .f32⟩
  | 60 => ⟨S_, .f32⟩
  | 61 => ⟨S256x3, .f32⟩
  | 62 => ⟨S256x3, .f32⟩
  | 63 => ⟨S_, .f32⟩
  | 64 => ⟨S256x3, .f32⟩
  | 65 => ⟨S256x3, .f32⟩
  | 66 => ⟨S_, .f32⟩
  | 67 => ⟨S_, .f32⟩
  | 68 => ⟨S_, .f32⟩
  | 69 => ⟨S256x3, .f32⟩
  | 70 => ⟨S256x3, .f32⟩
  | 71 => ⟨S_, .f32⟩
  | 72 => ⟨S256x3, .f32⟩
  | 73 => ⟨S256x3, .f32⟩
  | 74 => ⟨S_, .f32⟩
  | 75 => ⟨S256, .f32⟩
  | 76 => ⟨S256, .f32⟩
  | 77 => ⟨S256, .f32⟩
  | 78 => ⟨S256, .f32⟩
  | 79 => ⟨S256, .f32⟩
  | 80 => ⟨S_, .f32⟩
  | 81 => ⟨S256, .f32⟩
  | 82 => ⟨S256, .f32⟩
  | 83 => ⟨S_, .f32⟩
  | 84 => ⟨S256x3, .f32⟩
  | 85 => ⟨S256x3, .f32⟩
  | 86 => ⟨S_, .f32⟩
  | 87 => ⟨S256, .f32⟩
  | 88 => ⟨S256, .f32⟩
  | 89 => ⟨S256, .f32⟩
  | 90 => ⟨S_, .f32⟩
  | 91 => ⟨S256, .f32⟩
  | 92 => ⟨S256, .f32⟩
  | 93 => ⟨S_, .f32⟩
  | 94 => ⟨S256, .f32⟩
  | 95 => ⟨S256, .f32⟩
  | 96 => ⟨S256, .f32⟩
  | 97 => ⟨S_, .f32⟩
  | 98 => ⟨S256, .f32⟩
  | 99 => ⟨S256, .f32⟩
  | 100 => ⟨S256, .f32⟩
  | 101 => ⟨S256, .f32⟩
  | 102 => ⟨S256, .f32⟩
  | 103 => ⟨S256, .f32⟩
  | 104 => ⟨S256, .f32⟩
  | 105 => ⟨S256, .f32⟩
  | 106 => ⟨S_, .f32⟩
  | 107 => ⟨S256, .f32⟩
  | 108 => ⟨S256, .f32⟩
  | 109 => ⟨S256, .f32⟩
  | 110 => ⟨S256, .f32⟩
  | 111 => ⟨S256, .f32⟩
  | 112 => ⟨S256, .f32⟩
  | 113 => ⟨S256, .f32⟩
  | 114 => ⟨S256, .f32⟩
  | 115 => ⟨S256, .f32⟩
  | 116 => ⟨S256, .f32⟩
  | 117 => ⟨S256, .f32⟩
  | 118 => ⟨S256x3, .f32⟩
  | 119 => ⟨S256x3, .f32⟩
  | 120 => ⟨S256x3, .f32⟩
  | 121 => ⟨S256x3, .f32⟩
  | 122 => ⟨S256x3, .f32⟩
  | 123 => ⟨S256x1, .f32⟩
  | 124 => ⟨S256x1, .f32⟩
  | 125 => ⟨S256x1, .f32⟩
  | 126 => ⟨S256x1, .f32⟩
  | 127 => ⟨S256x1, .f32⟩
  | _ => ⟨S512x512, .f32⟩

abbrev hbmTy0_1 (i : Nat) : BufTy := match i % 128 with
  | 0 => ⟨S256x1, .f32⟩
  | 1 => ⟨S256x1, .f32⟩
  | 2 => ⟨S256x1, .f32⟩
  | 3 => ⟨S256x1, .f32⟩
  | 4 => ⟨S256, .f32⟩
  | 5 => ⟨S256x1, .f32⟩
  | 6 => ⟨S256x1, .f32⟩
  | 7 => ⟨S256, .f32⟩
  | 8 => ⟨S256x1, .f32⟩
  | 9 => ⟨S256x1, .f32⟩
  | 10 => ⟨S256, .f32⟩
  | 11 => ⟨S256x1, .f32⟩
  | 12 => ⟨S256x1, .f32⟩
  | 13 => ⟨S256, .f32⟩
  | 14 => ⟨S256x1, .f32⟩
  | 15 => ⟨S256x1, .f32⟩
  | 16 => ⟨S256, .f32⟩
  | 17 => ⟨S256x1, .f32⟩
  | 18 => ⟨S256x1, .f32⟩
  | 19 => ⟨S256, .f32⟩
  | 20 => ⟨S256x1, .f32⟩
  | 21 => ⟨S512x3x512, .f32⟩
  | 22 => ⟨S3x512x512, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | .local _ .vmem, ⟨0, _⟩ => ⟨S256x1, .f32⟩
  | .local _ .vmem, ⟨1, _⟩ => ⟨S256x1, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S16x512, .f32⟩
  | .local _ .vmem, ⟨15, _⟩ => ⟨S16x512, .f32⟩
  | .local _ .vmem, ⟨16, _⟩ => ⟨S16x512, .f32⟩
  | .local _ .vmem, ⟨17, _⟩ => ⟨S16x512, .f32⟩
  | .local _ .vmem, ⟨18, _⟩ => ⟨S16x3x512, .f32⟩
  | .local _ .vmem, ⟨19, _⟩ => ⟨S16x3x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_cst_1 : Ref sig .tc := ⟨.hbm, 18, rfl⟩
abbrev main_cst_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v1 : Ref sig .tc := ⟨.hbm, 25, rfl⟩
abbrev main_cst_3 : Ref sig .tc := ⟨.hbm, 26, rfl⟩
abbrev main_cst_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v2 : Ref sig .tc := ⟨.hbm, 33, rfl⟩
abbrev main_cst_5 : Ref sig .tc := ⟨.hbm, 34, rfl⟩
abbrev main_cst_6 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v3 : Ref sig .tc := ⟨.hbm, 41, rfl⟩
abbrev main_cst_7 : Ref sig .tc := ⟨.hbm, 42, rfl⟩
abbrev main_cst_8 : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_v4 : Ref sig .tc := ⟨.hbm, 49, rfl⟩
abbrev main_cst_9 : Ref sig .tc := ⟨.hbm, 50, rfl⟩
abbrev main_cst_10 : Ref sig .tc := ⟨.hbm, 51, rfl⟩
abbrev main_call5_v0 : Ref sig .tc := ⟨.hbm, 52, rfl⟩
abbrev main_call5_v1 : Ref sig .tc := ⟨.hbm, 53, rfl⟩
abbrev main_call5_v2 : Ref sig .tc := ⟨.hbm, 54, rfl⟩
abbrev main_call5_v3 : Ref sig .tc := ⟨.hbm, 55, rfl⟩
abbrev main_call5_v4 : Ref sig .tc := ⟨.hbm, 56, rfl⟩
abbrev main_v5 : Ref sig .tc := ⟨.hbm, 57, rfl⟩
abbrev main_cst_11 : Ref sig .tc := ⟨.hbm, 58, rfl⟩
abbrev main_cst_12 : Ref sig .tc := ⟨.hbm, 59, rfl⟩
abbrev main_call6_v0 : Ref sig .tc := ⟨.hbm, 60, rfl⟩
abbrev main_call6_v1 : Ref sig .tc := ⟨.hbm, 61, rfl⟩
abbrev main_call6_v2 : Ref sig .tc := ⟨.hbm, 62, rfl⟩
abbrev main_call6_v3 : Ref sig .tc := ⟨.hbm, 63, rfl⟩
abbrev main_call6_v4 : Ref sig .tc := ⟨.hbm, 64, rfl⟩
abbrev main_v6 : Ref sig .tc := ⟨.hbm, 65, rfl⟩
abbrev main_cst_13 : Ref sig .tc := ⟨.hbm, 66, rfl⟩
abbrev main_cst_14 : Ref sig .tc := ⟨.hbm, 67, rfl⟩
abbrev main_call7_v0 : Ref sig .tc := ⟨.hbm, 68, rfl⟩
abbrev main_call7_v1 : Ref sig .tc := ⟨.hbm, 69, rfl⟩
abbrev main_call7_v2 : Ref sig .tc := ⟨.hbm, 70, rfl⟩
abbrev main_call7_v3 : Ref sig .tc := ⟨.hbm, 71, rfl⟩
abbrev main_call7_v4 : Ref sig .tc := ⟨.hbm, 72, rfl⟩
abbrev main_v7 : Ref sig .tc := ⟨.hbm, 73, rfl⟩
abbrev main_cst_15 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_v12 : Ref sig .tc := ⟨.hbm, 79, rfl⟩
abbrev main_cst_16 : Ref sig .tc := ⟨.hbm, 80, rfl⟩
abbrev main_v13 : Ref sig .tc := ⟨.hbm, 81, rfl⟩
abbrev main_v14 : Ref sig .tc := ⟨.hbm, 82, rfl⟩
abbrev main_cst_17 : Ref sig .tc := ⟨.hbm, 83, rfl⟩
abbrev main_v15 : Ref sig .tc := ⟨.hbm, 84, rfl⟩
abbrev main_v16 : Ref sig .tc := ⟨.hbm, 85, rfl⟩
abbrev main_cst_18 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_cst_19 : Ref sig .tc := ⟨.hbm, 90, rfl⟩
abbrev main_v20 : Ref sig .tc := ⟨.hbm, 91, rfl⟩
abbrev main_v21 : Ref sig .tc := ⟨.hbm, 92, rfl⟩
abbrev main_cst_20 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_cst_21 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_cst_22 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg14_1 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem14_1 : DmaSem sig := 15
abbrev cc0_sem15_0 : DmaSem sig := 16
abbrev cc0_sem15_1 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x3x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S_S256 : S_.BroadcastsInDim S256 (![] : Fin 0 → Fin S256.rank)
  bcast_S_S256x3 : S_.BroadcastsInDim S256x3 (![] : Fin 0 → Fin S256x3.rank)
  shapeCasts_S256_S256x1 : S256.ShapeCasts S256x1
  slices_S256x3_S256x1_0_0 : S256x3.Slices ![0, 0] S256x1
  shapeCasts_S256x1_S256 : S256x1.ShapeCasts S256
  slices_S256x3_S256x1_0_1 : S256x3.Slices ![0, 1] S256x1
  slices_S256x3_S256x1_0_2 : S256x3.Slices ![0, 2] S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S16x512_S1x512_0_0 : ∀ a, (![0, 0] : Fin 2 → Nat) a + S1x512.size a ≤ S16x512.size a
  h_S1x512 : 0 < S1x512.numel
  shapeCasts_S1x512_S512 : S1x512.ShapeCasts S512
  shapeCasts_S512_S1x512 : S512.ShapeCasts S1x512
  broadcasts_S1x512_S256x512 : S1x512.Broadcasts S256x512
  broadcasts_S256x1_S256x512 : S256x1.Broadcasts S256x512
  reduces_S256x512_S512 : S256x512.Reduces [0] S512
  inb_S16x3x512_S1x1x512_0_0_0 : ∀ a, (![0, 0, 0] : Fin 3 → Nat) a + S1x1x512.size a ≤ S16x3x512.size a
  h_S1x1x512 : 0 < S1x1x512.numel
  shapeCasts_S1x1x512_S512 : S1x1x512.ShapeCasts S512
  shapeCasts_S512_S1x1x512 : S512.ShapeCasts S1x1x512
  inb_S16x3x512_S1x1x512_0_1_0 : ∀ a, (![0, 1, 0] : Fin 3 → Nat) a + S1x1x512.size a ≤ S16x3x512.size a
  inb_S16x3x512_S1x1x512_0_2_0 : ∀ a, (![0, 2, 0] : Fin 3 → Nat) a + S1x1x512.size a ≤ S16x3x512.size a
  inb_S16x512_S1x512_1_0 : ∀ a, (![1, 0] : Fin 2 → Nat) a + S1x512.size a ≤ S16x512.size a
  inb_S16x3x512_S1x1x512_1_0_0 : ∀ a, (![1, 0, 0] : Fin 3 → Nat) a + S1x1x512.size a ≤ S16x3x512.size a
  inb_S16x3x512_S1x1x512_1_1_0 : ∀ a, (![1, 1, 0] : Fin 3 → Nat) a + S1x1x512.size a ≤ S16x3x512.size a
  inb_S16x3x512_S1x1x512_1_2_0 : ∀ a, (![1, 2, 0] : Fin 3 → Nat) a + S1x1x512.size a ≤ S16x3x512.size a
  inb_S16x512_S1x512_2_0 : ∀ a, (![2, 0] : Fin 2 → Nat) a + S1x512.size a ≤ S16x512.size a
  inb_S16x3x512_S1x1x512_2_0_0 : ∀ a, (![2, 0, 0] : Fin 3 → Nat) a + S1x1x512.size a ≤ S16x3x512.size a
  inb_S16x3x512_S1x1x512_2_1_0 : ∀ a, (![2, 1, 0] : Fin 3 → Nat) a + S1x1x512.size a ≤ S16x3x512.size a
  inb_S16x3x512_S1x1x512_2_2_0 : ∀ a, (![2, 2, 0] : Fin 3 → Nat) a + S1x1x512.size a ≤ S16x3x512.size a
  inb_S16x512_S1x512_3_0 : ∀ a, (![3, 0] : Fin 2 → Nat) a + S1x512.size a ≤ S16x512.size a
  inb_S16x3x512_S1x1x512_3_0_0 : ∀ a, (![3, 0, 0] : Fin 3 → Nat) a + S1x1x512.size a ≤ S16x3x512.size a
  inb_S16x3x512_S1x1x512_3_1_0 : ∀ a, (![3, 1, 0] : Fin 3 → Nat) a + S1x1x512.size a ≤ S16x3x512.size a
  inb_S16x3x512_S1x1x512_3_2_0 : ∀ a, (![3, 2, 0] : Fin 3 → Nat) a + S1x1x512.size a ≤ S16x3x512.size a
  inb_S16x512_S1x512_4_0 : ∀ a, (![4, 0] : Fin 2 → Nat) a + S1x512.size a ≤ S16x512.size a
  inb_S16x3x512_S1x1x512_4_0_0 : ∀ a, (![4, 0, 0] : Fin 3 → Nat) a + S1x1x512.size a ≤ S16x3x512.size a
  inb_S16x3x512_S1x1x512_4_1_0 : ∀ a, (![4, 1, 0] : Fin 3 → Nat) a + S1x1x512.size a ≤ S16x3x512.size a
  inb_S16x3x512_S1x1x512_4_2_0 : ∀ a, (![4, 2, 0] : Fin 3 → Nat) a + S1x1x512.size a ≤ S16x3x512.size a
  inb_S16x512_S1x512_5_0 : ∀ a, (![5, 0] : Fin 2 → Nat) a + S1x512.size a ≤ S16x512.size a
  inb_S16x3x512_S1x1x512_5_0_0 : ∀ a, (![5, 0, 0] : Fin 3 → Nat) a + S1x1x512.size a ≤ S16x3x512.size a
  inb_S16x3x512_S1x1x512_5_1_0 : ∀ a, (![5, 1, 0] : Fin 3 → Nat) a + S1x1x512.size a ≤ S16x3x512.size a
  inb_S16x3x512_S1x1x512_5_2_0 : ∀ a, (![5, 2, 0] : Fin 3 → Nat) a + S1x1x512.size a ≤ S16x3x512.size a
  inb_S16x512_S1x512_6_0 : ∀ a, (![6, 0] : Fin 2 → Nat) a + S1x512.size a ≤ S16x512.size a
  inb_S16x3x512_S1x1x512_6_0_0 : ∀ a, (![6, 0, 0] : Fin 3 → Nat) a + S1x1x512.size a ≤ S16x3x512.size a
  inb_S16x3x512_S1x1x512_6_1_0 : ∀ a, (![6, 1, 0] : Fin 3 → Nat) a + S1x1x512.size a ≤ S16x3x512.size a
  inb_S16x3x512_S1x1x512_6_2_0 : ∀ a, (![6, 2, 0] : Fin 3 → Nat) a + S1x1x512.size a ≤ S16x3x512.size a
  inb_S16x512_S1x512_7_0 : ∀ a, (![7, 0] : Fin 2 → Nat) a + S1x512.size a ≤ S16x512.size a
  inb_S16x3x512_S1x1x512_7_0_0 : ∀ a, (![7, 0, 0] : Fin 3 → Nat) a + S1x1x512.size a ≤ S16x3x512.size a
  inb_S16x3x512_S1x1x512_7_1_0 : ∀ a, (![7, 1, 0] : Fin 3 → Nat) a + S1x1x512.size a ≤ S16x3x512.size a
  inb_S16x3x512_S1x1x512_7_2_0 : ∀ a, (![7, 2, 0] : Fin 3 → Nat) a + S1x1x512.size a ≤ S16x3x512.size a
  inb_S16x512_S1x512_8_0 : ∀ a, (![8, 0] : Fin 2 → Nat) a + S1x512.size a ≤ S16x512.size a
  inb_S16x3x512_S1x1x512_8_0_0 : ∀ a, (![8, 0, 0] : Fin 3 → Nat) a + S1x1x512.size a ≤ S16x3x512.size a
  inb_S16x3x512_S1x1x512_8_1_0 : ∀ a, (![8, 1, 0] : Fin 3 → Nat) a + S1x1x512.size a ≤ S16x3x512.size a
  inb_S16x3x512_S1x1x512_8_2_0 : ∀ a, (![8, 2, 0] : Fin 3 → Nat) a + S1x1x512.size a ≤ S16x3x512.size a
  inb_S16x512_S1x512_9_0 : ∀ a, (![9, 0] : Fin 2 → Nat) a + S1x512.size a ≤ S16x512.size a
  inb_S16x3x512_S1x1x512_9_0_0 : ∀ a, (![9, 0, 0] : Fin 3 → Nat) a + S1x1x512.size a ≤ S16x3x512.size a
  inb_S16x3x512_S1x1x512_9_1_0 : ∀ a, (![9, 1, 0] : Fin 3 → Nat) a + S1x1x512.size a ≤ S16x3x512.size a
  inb_S16x3x512_S1x1x512_9_2_0 : ∀ a, (![9, 2, 0] : Fin 3 → Nat) a + S1x1x512.size a ≤ S16x3x512.size a
  inb_S16x512_S1x512_10_0 : ∀ a, (![10, 0] : Fin 2 → Nat) a + S1x512.size a ≤ S16x512.size a
  inb_S16x3x512_S1x1x512_10_0_0 : ∀ a, (![10, 0, 0] : Fin 3 → Nat) a + S1x1x512.size a ≤ S16x3x512.size a
  inb_S16x3x512_S1x1x512_10_1_0 : ∀ a, (![10, 1, 0] : Fin 3 → Nat) a + S1x1x512.size a ≤ S16x3x512.size a
  inb_S16x3x512_S1x1x512_10_2_0 : ∀ a, (![10, 2, 0] : Fin 3 → Nat) a + S1x1x512.size a ≤ S16x3x512.size a
  inb_S16x512_S1x512_11_0 : ∀ a, (![11, 0] : Fin 2 → Nat) a + S1x512.size a ≤ S16x512.size a
  inb_S16x3x512_S1x1x512_11_0_0 : ∀ a, (![11, 0, 0] : Fin 3 → Nat) a + S1x1x512.size a ≤ S16x3x512.size a
  inb_S16x3x512_S1x1x512_11_1_0 : ∀ a, (![11, 1, 0] : Fin 3 → Nat) a + S1x1x512.size a ≤ S16x3x512.size a
  inb_S16x3x512_S1x1x512_11_2_0 : ∀ a, (![11, 2, 0] : Fin 3 → Nat) a + S1x1x512.size a ≤ S16x3x512.size a
  inb_S16x512_S1x512_12_0 : ∀ a, (![12, 0] : Fin 2 → Nat) a + S1x512.size a ≤ S16x512.size a
  inb_S16x3x512_S1x1x512_12_0_0 : ∀ a, (![12, 0, 0] : Fin 3 → Nat) a + S1x1x512.size a ≤ S16x3x512.size a
  inb_S16x3x512_S1x1x512_12_1_0 : ∀ a, (![12, 1, 0] : Fin 3 → Nat) a + S1x1x512.size a ≤ S16x3x512.size a
  inb_S16x3x512_S1x1x512_12_2_0 : ∀ a, (![12, 2, 0] : Fin 3 → Nat) a + S1x1x512.size a ≤ S16x3x512.size a
  inb_S16x512_S1x512_13_0 : ∀ a, (![13, 0] : Fin 2 → Nat) a + S1x512.size a ≤ S16x512.size a
  inb_S16x3x512_S1x1x512_13_0_0 : ∀ a, (![13, 0, 0] : Fin 3 → Nat) a + S1x1x512.size a ≤ S16x3x512.size a
  inb_S16x3x512_S1x1x512_13_1_0 : ∀ a, (![13, 1, 0] : Fin 3 → Nat) a + S1x1x512.size a ≤ S16x3x512.size a
  inb_S16x3x512_S1x1x512_13_2_0 : ∀ a, (![13, 2, 0] : Fin 3 → Nat) a + S1x1x512.size a ≤ S16x3x512.size a
  inb_S16x512_S1x512_14_0 : ∀ a, (![14, 0] : Fin 2 → Nat) a + S1x512.size a ≤ S16x512.size a
  inb_S16x3x512_S1x1x512_14_0_0 : ∀ a, (![14, 0, 0] : Fin 3 → Nat) a + S1x1x512.size a ≤ S16x3x512.size a
  inb_S16x3x512_S1x1x512_14_1_0 : ∀ a, (![14, 1, 0] : Fin 3 → Nat) a + S1x1x512.size a ≤ S16x3x512.size a
  inb_S16x3x512_S1x1x512_14_2_0 : ∀ a, (![14, 2, 0] : Fin 3 → Nat) a + S1x1x512.size a ≤ S16x3x512.size a
  inb_S16x512_S1x512_15_0 : ∀ a, (![15, 0] : Fin 2 → Nat) a + S1x512.size a ≤ S16x512.size a
  inb_S16x3x512_S1x1x512_15_0_0 : ∀ a, (![15, 0, 0] : Fin 3 → Nat) a + S1x1x512.size a ≤ S16x3x512.size a
  inb_S16x3x512_S1x1x512_15_1_0 : ∀ a, (![15, 1, 0] : Fin 3 → Nat) a + S1x1x512.size a ≤ S16x3x512.size a
  inb_S16x3x512_S1x1x512_15_2_0 : ∀ a, (![15, 2, 0] : Fin 3 → Nat) a + S1x1x512.size a ≤ S16x3x512.size a
  transposes_S512x3x512_S3x512x512_1_0_2 : S512x3x512.Transposes [1, 0, 2] S3x512x512
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S256x1.size a
  hwx0_0 : ∀ i : grid0.Coords, EltTy.bits .f32 = 32 ∨ (Rect.block (s := S256x1) S256x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S256x1.size a
  hwx0_8 : ∀ i : grid0.Coords, EltTy.bits .f32 = 32 ∨ (Rect.block (s := S256x1) S256x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .f32 = 32 ∨ (Rect.block (s := S256x1) S256x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x1.size a ≤ S256x1.size a
  hwx0_10 : ∀ i : grid0.Coords, EltTy.bits .f32 = 32 ∨ (Rect.block (s := S256x1) S256x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x1.size a ≤ S256x1.size a
  hwx0_11 : ∀ i : grid0.Coords, EltTy.bits .f32 = 32 ∨ (Rect.block (s := S256x1) S256x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S256x1.size a
  hwx0_12 : ∀ i : grid0.Coords, EltTy.bits .f32 = 32 ∨ (Rect.block (s := S256x1) S256x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x1.size a ≤ S256x1.size a
  hwx0_13 : ∀ i : grid0.Coords, EltTy.bits .f32 = 32 ∨ (Rect.block (s := S256x1) S256x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S16x512.size a ≤ S512x512.size a
  hwx0_14 : ∀ i : grid0.Coords, EltTy.bits .f32 = 32 ∨ (Rect.block (s := S512x512) S16x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S16x512.size a ≤ S512x512.size a
  hwx0_15 : ∀ i : grid0.Coords, EltTy.bits .f32 = 32 ∨ (Rect.block (s := S512x512) S16x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S16x3x512.size a ≤ S512x3x512.size a
  hwx0_16 : ∀ i : grid0.Coords, EltTy.bits .f32 = 32 ∨ (Rect.block (s := S512x3x512) S16x3x512.size (cc0_transform_16 i) (hinb0_16 i)).WholeWords (EltTy.packing .f32)

variable [Facts₀]

abbrev win0_0 : Pipeline.Window sig grid0 :=
  Pipeline.Window.ofSpec (Memref.whole main_v49) S256x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v50) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v53) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v54) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v55) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v56) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v59) S256x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v62) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v65) S256x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v68) S256x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v71) S256x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v74) S256x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg0) S16x512.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg1) S16x512.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v75) S16x3x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S512x512 : Shape := ⟨2, ![512, 512]⟩
abbrev S256 : Shape := ⟨1, ![256]⟩
abbrev S256x3 : Shape := ⟨2, ![256, 3]⟩
abbrev S_ : Shape := ⟨0, ![]⟩
abbrev S256x1x1 : Shape := ⟨3, ![256, 1, 1]⟩
abbrev S1x512x512 : Shape := ⟨3, ![1, 512, 512]⟩
abbrev S256x512x512 : Shape := ⟨3, ![256, 512, 512]⟩
abbrev S256x1x1x1 : Shape := ⟨4, ![256, 1, 1, 1]⟩
abbrev S256x1x512x512 : Shape := ⟨4, ![256, 1, 512, 512]⟩
abbrev S256x3x1x1 : Shape := ⟨4, ![256, 3, 1, 1]⟩
abbrev S256x3x512x512 : Shape := ⟨4, ![256, 3, 512, 512]⟩
abbrev S3x512x512 : Shape := ⟨3, ![3, 512, 512]⟩

abbrev nBuf : Space → Nat
  | .hbm => 153
  | .vmem => 0
  | .smem => 0
  | _ => 0

abbrev hbmTy0_0 (i : Nat) : BufTy := match i % 128 with
  | 0 => ⟨S512x512, .f32⟩
  | 1 => ⟨S512x512, .f32⟩
  | 2 => ⟨S256, .f32⟩
  | 3 => ⟨S256, .f32⟩
  | 4 => ⟨S256, .f32⟩
  | 5 => ⟨S256, .f32⟩
  | 6 => ⟨S256, .f32⟩
  | 7 => ⟨S256, .f32⟩
  | 8 => ⟨S256x3, .f32⟩
  | 9 => ⟨S256x3, .f32⟩
  | 10 => ⟨S_, .f32⟩
  | 11 => ⟨S_, .f32⟩
  | 12 => ⟨S_, .f32⟩
  | 13 => ⟨S256, .f32⟩
  | 14 => ⟨S256, .f32⟩
  | 15 => ⟨S_, .f32⟩
  | 16 => ⟨S256, .f32⟩
  | 17 => ⟨S256, .f32⟩
  | 18 => ⟨S_, .f32⟩
  | 19 => ⟨S_, .f32⟩
  | 20 => ⟨S_, .f32⟩
  | 21 => ⟨S256, .f32⟩
  | 22 => ⟨S256, .f32⟩
  | 23 => ⟨S_, .f32⟩
  | 24 => ⟨S256, .f32⟩
  | 25 => ⟨S256, .f32⟩
  | 26 => ⟨S_, .f32⟩
  | 27 => ⟨S_, .f32⟩
  | 28 => ⟨S_, .f32⟩
  | 29 => ⟨S256, .f32⟩
  | 30 => ⟨S256, .f32⟩
  | 31 => ⟨S_, .f32⟩
  | 32 => ⟨S256, .f32⟩
  | 33 => ⟨S256, .f32⟩
  | 34 => ⟨S_, .f32⟩
  | 35 => ⟨S_, .f32⟩
  | 36 => ⟨S_, .f32⟩
  | 37 => ⟨S256, .f32⟩
  | 38 => ⟨S256, .f32⟩
  | 39 => ⟨S_, .f32⟩
  | 40 => ⟨S256, .f32⟩
  | 41 => ⟨S256, .f32⟩
  | 42 => ⟨S_, .f32⟩
  | 43 => ⟨S_, .f32⟩
  | 44 => ⟨S_, .f32⟩
  | 45 => ⟨S256, .f32⟩
  | 46 => ⟨S256, .f32⟩
  | 47 => ⟨S_, .f32⟩
  | 48 => ⟨S256, .f32⟩
  | 49 => ⟨S256, .f32⟩
  | 50 => ⟨S_, .f32⟩
  | 51 => ⟨S_, .f32⟩
  | 52 => ⟨S_, .f32⟩
  | 53 => ⟨S256, .f32⟩
  | 54 => ⟨S256, .f32⟩
  | 55 => ⟨S_, .f32⟩
  | 56 => ⟨S256, .f32⟩
  | 57 => ⟨S256, .f32⟩
  | 58 => ⟨S_, .f32⟩
  | 59 => ⟨S_, .f32⟩
  | 60 => ⟨S_, .f32⟩
  | 61 => ⟨S256x3, .f32⟩
  | 62 => ⟨S256x3, .f32⟩
  | 63 => ⟨S_, .f32⟩
  | 64 => ⟨S256x3, .f32⟩
  | 65 => ⟨S256x3, .f32⟩
  | 66 => ⟨S_, .f32⟩
  | 67 => ⟨S_, .f32⟩
  | 68 => ⟨S_, .f32⟩
  | 69 => ⟨S256x3, .f32⟩
  | 70 => ⟨S256x3, .f32⟩
  | 71 => ⟨S_, .f32⟩
  | 72 => ⟨S256x3, .f32⟩
  | 73 => ⟨S256x3, .f32⟩
  | 74 => ⟨S_, .f32⟩
  | 75 => ⟨S256, .f32⟩
  | 76 => ⟨S256, .f32⟩
  | 77 => ⟨S256, .f32⟩
  | 78 => ⟨S256x1x1, .f32⟩
  | 79 => ⟨S256, .f32⟩
  | 80 => ⟨S256x1x1, .f32⟩
  | 81 => ⟨S1x512x512, .f32⟩
  | 82 => ⟨S256x1x1, .f32⟩
  | 83 => ⟨S256x512x512, .f32⟩
  | 84 => ⟨S256x512x512, .f32⟩
  | 85 => ⟨S256x512x512, .f32⟩
  | 86 => ⟨S1x512x512, .f32⟩
  | 87 => ⟨S256x1x1, .f32⟩
  | 88 => ⟨S256x512x512, .f32⟩
  | 89 => ⟨S256x512x512, .f32⟩
  | 90 => ⟨S256x512x512, .f32⟩
  | 91 => ⟨S256x512x512, .f32⟩
  | 92 => ⟨S256x512x512, .f32⟩
  | 93 => ⟨S256x512x512, .f32⟩
  | 94 => ⟨S256x512x512, .f32⟩
  | 95 => ⟨S256x512x512, .f32⟩
  | 96 => ⟨S256x512x512, .f32⟩
  | 97 => ⟨S256x512x512, .f32⟩
  | 98 => ⟨S256x512x512, .f32⟩
  | 99 => ⟨S256x512x512, .f32⟩
  | 100 => ⟨S256x512x512, .f32⟩
  | 101 => ⟨S256x512x512, .f32⟩
  | 102 => ⟨S256x512x512, .f32⟩
  | 103 => ⟨S256x512x512, .f32⟩
  | 104 => ⟨S256x1x1, .f32⟩
  | 105 => ⟨S256x1x1, .f32⟩
  | 106 => ⟨S_, .f32⟩
  | 107 => ⟨S256x1x1, .f32⟩
  | 108 => ⟨S256x1x1, .f32⟩
  | 109 => ⟨S256x512x512, .f32⟩
  | 110 => ⟨S256x512x512, .f32⟩
  | 111 => ⟨S256x512x512, .f32⟩
  | 112 => ⟨S256x1x1, .f32⟩
  | 113 => ⟨S256x1x1, .f32⟩
  | 114 => ⟨S_, .f32⟩
  | 115 => ⟨S256x1x1, .f32⟩
  | 116 => ⟨S256x1x1, .f32⟩
  | 117 => ⟨S256x512x512, .f32⟩
  | 118 => ⟨S256x512x512, .f32⟩
  | 119 => ⟨S256x512x512, .f32⟩
  | 120 => ⟨S256x512x512, .f32⟩
  | 121 => ⟨S256, .f32⟩
  | 122 => ⟨S_, .f32⟩
  | 123 => ⟨S256, .f32⟩
  | 124 => ⟨S256, .f32⟩
  | 125 => ⟨S_, .f32⟩
  | 126 => ⟨S256x3, .f32⟩
  | 127 => ⟨S256x3, .f32⟩
  | _ => ⟨S512x512, .f32⟩

abbrev hbmTy0_1 (i : Nat) : BufTy := match i % 128 with
  | 0 => ⟨S256x1x1x1, .f32⟩
  | 1 => ⟨S256x1x512x512, .f32⟩
  | 2 => ⟨S256x1x512x512, .f32⟩
  | 3 => ⟨S256x1x512x512, .f32⟩
  | 4 => ⟨S256x3x1x1, .f32⟩
  | 5 => ⟨S256x3x512x512, .f32⟩
  | 6 => ⟨S256x3x512x512, .f32⟩
  | 7 => ⟨S256x3x512x512, .f32⟩
  | 8 => ⟨S256x3x512x512, .f32⟩
  | 9 => ⟨S256x3x1x1, .f32⟩
  | 10 => ⟨S256x1x512x512, .f32⟩
  | 11 => ⟨S256x3x512x512, .f32⟩
  | 12 => ⟨S256x3x512x512, .f32⟩
  | 13 => ⟨S256x3x512x512, .f32⟩
  | 14 => ⟨S256x3x512x512, .f32⟩
  | 15 => ⟨S_, .f32⟩
  | 16 => ⟨S3x512x512, .f32⟩
  | 17 => ⟨S_, .f32⟩
  | 18 => ⟨S_, .f32⟩
  | 19 => ⟨S_, .f32⟩
  | 20 => ⟨S3x512x512, .f32⟩
  | 21 => ⟨S3x512x512, .f32⟩
  | 22 => ⟨S_, .f32⟩
  | 23 => ⟨S3x512x512, .f32⟩
  | 24 => ⟨S3x512x512, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_cst_1 : Ref sig .tc := ⟨.hbm, 18, rfl⟩
abbrev main_cst_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v1 : Ref sig .tc := ⟨.hbm, 25, rfl⟩
abbrev main_cst_3 : Ref sig .tc := ⟨.hbm, 26, rfl⟩
abbrev main_cst_4 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v2 : Ref sig .tc := ⟨.hbm, 33, rfl⟩
abbrev main_cst_5 : Ref sig .tc := ⟨.hbm, 34, rfl⟩
abbrev main_cst_6 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v3 : Ref sig .tc := ⟨.hbm, 41, rfl⟩
abbrev main_cst_7 : Ref sig .tc := ⟨.hbm, 42, rfl⟩
abbrev main_cst_8 : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_v4 : Ref sig .tc := ⟨.hbm, 49, rfl⟩
abbrev main_cst_9 : Ref sig .tc := ⟨.hbm, 50, rfl⟩
abbrev main_cst_10 : Ref sig .tc := ⟨.hbm, 51, rfl⟩
abbrev main_call5_v0 : Ref sig .tc := ⟨.hbm, 52, rfl⟩
abbrev main_call5_v1 : Ref sig .tc := ⟨.hbm, 53, rfl⟩
abbrev main_call5_v2 : Ref sig .tc := ⟨.hbm, 54, rfl⟩
abbrev main_call5_v3 : Ref sig .tc := ⟨.hbm, 55, rfl⟩
abbrev main_call5_v4 : Ref sig .tc := ⟨.hbm, 56, rfl⟩
abbrev main_v5 : Ref sig .tc := ⟨.hbm, 57, rfl⟩
abbrev main_cst_11 : Ref sig .tc := ⟨.hbm, 58, rfl⟩
abbrev main_cst_12 : Ref sig .tc := ⟨.hbm, 59, rfl⟩
abbrev main_call6_v0 : Ref sig .tc := ⟨.hbm, 60, rfl⟩
abbrev main_call6_v1 : Ref sig .tc := ⟨.hbm, 61, rfl⟩
abbrev main_call6_v2 : Ref sig .tc := ⟨.hbm, 62, rfl⟩
abbrev main_call6_v3 : Ref sig .tc := ⟨.hbm, 63, rfl⟩
abbrev main_call6_v4 : Ref sig .tc := ⟨.hbm, 64, rfl⟩
abbrev main_v6 : Ref sig .tc := ⟨.hbm, 65, rfl⟩
abbrev main_cst_13 : Ref sig .tc := ⟨.hbm, 66, rfl⟩
abbrev main_cst_14 : Ref sig .tc := ⟨.hbm, 67, rfl⟩
abbrev main_call7_v0 : Ref sig .tc := ⟨.hbm, 68, rfl⟩
abbrev main_call7_v1 : Ref sig .tc := ⟨.hbm, 69, rfl⟩
abbrev main_call7_v2 : Ref sig .tc := ⟨.hbm, 70, rfl⟩
abbrev main_call7_v3 : Ref sig .tc := ⟨.hbm, 71, rfl⟩
abbrev main_call7_v4 : Ref sig .tc := ⟨.hbm, 72, rfl⟩
abbrev main_v7 : Ref sig .tc := ⟨.hbm, 73, rfl⟩
abbrev main_cst_15 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_cst_16 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_cst_17 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_cst_18 : Ref sig .tc := ⟨.hbm, 122, rfl⟩
abbrev main_v53 : Ref sig .tc := ⟨.hbm, 123, rfl⟩
abbrev main_v54 : Ref sig .tc := ⟨.hbm, 124, rfl⟩
abbrev main_cst_19 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_cst_20 : Ref sig .tc := ⟨.hbm, 143, rfl⟩
abbrev main_v72 : Ref sig .tc := ⟨.hbm, 144, rfl⟩
abbrev main_cst_21 : Ref sig .tc := ⟨.hbm, 145, rfl⟩
abbrev main_cst_22 : Ref sig .tc := ⟨.hbm, 146, rfl⟩
abbrev main_call8_v0 : Ref sig .tc := ⟨.hbm, 147, rfl⟩
abbrev main_call8_v1 : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_v73 : Ref sig .tc := ⟨.hbm, 152, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S_S256x3 : S_.BroadcastsInDim S256x3 (![] : Fin 0 → Fin S256x3.rank)
  bcast_S256_S256x1x1_0 : S256.BroadcastsInDim S256x1x1 (![0] : Fin 1 → Fin S256x1x1.rank)
  bcast_S512x512_S1x512x512_1_2 : S512x512.BroadcastsInDim S1x512x512 (![1, 2] : Fin 2 → Fin S1x512x512.rank)
  bcast_S1x512x512_S256x512x512_0_1_2 : S1x512x512.BroadcastsInDim S256x512x512 (![0, 1, 2] : Fin 3 → Fin S256x512x512.rank)
  bcast_S256x1x1_S256x512x512_0_1_2 : S256x1x1.BroadcastsInDim S256x512x512 (![0, 1, 2] : Fin 3 → Fin S256x512x512.rank)
  bcast_S_S256x1x1 : S_.BroadcastsInDim S256x1x1 (![] : Fin 0 → Fin S256x1x1.rank)
  bcast_S256_S256x1x1x1_0 : S256.BroadcastsInDim S256x1x1x1 (![0] : Fin 1 → Fin S256x1x1x1.rank)
  bcast_S256x512x512_S256x1x512x512_0_2_3 : S256x512x512.BroadcastsInDim S256x1x512x512 (![0, 2, 3] : Fin 3 → Fin S256x1x512x512.rank)
  bcast_S256x1x1x1_S256x1x512x512_0_1_2_3 : S256x1x1x1.BroadcastsInDim S256x1x512x512 (![0, 1, 2, 3] : Fin 4 → Fin S256x1x512x512.rank)
  bcast_S256x3_S256x3x1x1_0_1 : S256x3.BroadcastsInDim S256x3x1x1 (![0, 1] : Fin 2 → Fin S256x3x1x1.rank)
  bcast_S256x1x512x512_S256x3x512x512_0_1_2_3 : S256x1x512x512.BroadcastsInDim S256x3x512x512 (![0, 1, 2, 3] : Fin 4 → Fin S256x3x512x512.rank)
  bcast_S256x3x1x1_S256x3x512x512_0_1_2_3 : S256x3x1x1.BroadcastsInDim S256x3x512x512 (![0, 1, 2, 3] : Fin 4 → Fin S256x3x512x512.rank)
  reducesTo_S256x3x512x512_S3x512x512_d0 : S256x3x512x512.ReducesTo [0] S3x512x512
  h_S_ : 0 < S_.numel
  bcast_S_S3x512x512 : S_.BroadcastsInDim S3x512x512 (![] : Fin 0 → Fin S3x512x512.rank)

variable [Facts₀]

class Facts : Prop extends Facts₀ where

variable [Facts]
-- ==== Proof.Spec.lean ====
/-
  The mathematics of the Gabor layer, over the extended reals, one gabor and one pixel at a time.

  A gabor with centre (u, v), orientation θ, widths σ and γ, frequency f, and per-channel phase φ and amplitude A
  contributes at a pixel (x, y)
      A · exp(-(x_r² / 2σ² + y_r² / 2γ²)) · cos(f · x_r + φ),
  where dx = x - u, dy = y - v, x_r = dx·cos θ + dy·sin θ and y_r = -dx·sin θ + dy·cos θ.  The reference
  computes exactly that (`rTerm`).  The kernel expands the quadratic form in dx, dy once per gabor into three
  coefficients a, b, c (so that y_r is never formed) and replaces cos(f·x_r + φ) by the angle-addition formula with the
  products A·cos φ and -(A·sin φ) precomputed (`kTerm`).  Over the real numbers the two agree
  (`kTermRaw_eq_rTermRaw`): the widths are clipped into a positive interval, so both divisions are by non-zero
  reals, and every intermediate value is finite.
-/
import Idealize.ShloMosaic.PureOps.Ideal
import Mathlib.Analysis.SpecialFunctions.Trigonometric.Basic

noncomputable section

namespace Cert.Gabor

open Idealize.ShloMosaic

/-! ## The constants the two programs spell -/

/-- `-1.0` -/ abbrev cNeg1 : EReal := Ideal.ofBits .f32 0xBF800000#32
/-- `1.0` -/ abbrev cOne : EReal := Ideal.ofBits .f32 0x3F800000#32
/-- `-2.0` -/ abbrev cNeg2 : EReal := Ideal.ofBits .f32 0xC0000000#32
/-- `2.0` -/ abbrev cTwo : EReal := Ideal.ofBits .f32 0x40000000#32
/-- the float nearest `0.001` -/ abbrev cSigLo : EReal := Ideal.ofBits .f32 0x3A83126F#32
/-- `-5.0` -/ abbrev cNeg5 : EReal := Ideal.ofBits .f32 0xC0A00000#32
/-- `5.0` -/ abbrev cFive : EReal := Ideal.ofBits .f32 0x40A00000#32
/-- the float nearest `0.0001` -/ abbrev cGamLo : EReal := Ideal.ofBits .f32 0x38D1B717#32
/-- `0.0` -/ abbrev cZero : EReal := Ideal.ofBits .f32 0x00000000#32
/-- the float nearest `2π` -/ abbrev cTwoPi : EReal := Ideal.ofBits .f32 0x40C90FDB#32

/-! ## Clipping and the per-gabor parameters -/

/-- `jnp.clip`: the upper bound against the maximum of the lower bound and the value. -/
def clipE (lo hi x : EReal) : EReal := min hi (max lo x)

/-- centre coordinates and phases are clipped to [-1, 1] -/
def unitC (x : EReal) : EReal := clipE cNeg1 cOne x
/-- the orientation is clipped to [-2, 2] (turns) -/
def thC (x : EReal) : EReal := clipE cNeg2 cTwo x
/-- the width along the carrier is clipped to [0.001, 1] -/
def sgC (x : EReal) : EReal := clipE cSigLo cOne x
/-- the log-frequency is clipped to [-5, 5] -/
def rfC (x : EReal) : EReal := clipE cNeg5 cFive x
/-- the width across the carrier is clipped to [0.0001, 1] -/
def gmC (x : EReal) : EReal := clipE cGamLo cOne x
/-- the amplitude is clipped to [0, 1] -/
def amC (x : EReal) : EReal := clipE cZero cOne x

/-- cos of the orientation in radians -/
def crE (th : EReal) : EReal := Ideal.cos (thC th * cTwoPi)
/-- sin of the orientation in radians -/
def srE (th : EReal) : EReal := Ideal.sin (thC th * cTwoPi)
/-- the carrier's angular frequency, 2π / e^{log-frequency} -/
def fqE (rf : EReal) : EReal := Ideal.div cTwoPi (Ideal.exp (rfC rf))
/-- a channel's phase in radians -/
def phE (ps : EReal) : EReal := unitC ps * cTwoPi

/-- the kernel's reciprocal 1 / (2·s·s) of a clipped width `s` -/
def inv2 (s : EReal) : EReal := Ideal.div cOne ((cTwo * s) * s)

/-- the kernel's coefficient of dx² -/
def aE (th rs gm : EReal) : EReal :=
  -((crE th * crE th) * inv2 (sgC rs) + (srE th * srE th) * inv2 (gmC gm))
/-- the kernel's coefficient of dx·dy -/
def bE (th rs gm : EReal) : EReal :=
  ((cNeg2 * crE th) * srE th) * (inv2 (sgC rs) - inv2 (gmC gm))
/-- the kernel's coefficient of dy² -/
def cE (th rs gm : EReal) : EReal :=
  -((srE th * srE th) * inv2 (sgC rs) + (crE th * crE th) * inv2 (gmC gm))
/-- the kernel's A·cos φ -/
def acE (ps am : EReal) : EReal := amC am * Ideal.cos (phE ps)
/-- the kernel's -(A·sin φ) -/
def nasE (ps am : EReal) : EReal := -(amC am * Ideal.sin (phE ps))

/-! ## One gabor at one pixel -/

/-- What the kernel adds up over the gabors, from its fourteen per-gabor columns and the pixel's coordinates. -/
def kTerm (cr sr u v a b c fq ac nas gx gy : EReal) : EReal :=
  ac * (Ideal.exp (((a * (gx - u)) * (gx - u) + (b * (gx - u)) * (gy - v)) + (c * (gy - v)) * (gy - v))
          * Ideal.cos (fq * ((gx - u) * cr + (gy - v) * sr)))
  + nas * (Ideal.exp (((a * (gx - u)) * (gx - u) + (b * (gx - u)) * (gy - v)) + (c * (gy - v)) * (gy - v))
          * Ideal.sin (fq * ((gx - u) * cr + (gy - v) * sr)))

/-- The kernel's summand from the raw (unclipped) parameters of one gabor and one channel. -/
def kTermRaw (gx gy u v th rs rf gm ps am : EReal) : EReal :=
  kTerm (crE th) (srE th) (unitC u) (unitC v) (aE th rs gm) (bE th rs gm) (cE th rs gm) (fqE rf)
    (acE ps am) (nasE ps am) gx gy

/-- The reference's summand from the raw parameters of one gabor and one channel. -/
def rTermRaw (gx gy u v th rs rf gm ps am : EReal) : EReal :=
  (amC am
    * Ideal.exp (Ideal.div (-((((gx - unitC u) * crE th + (gy - unitC v) * srE th))
                              * (((gx - unitC u) * crE th + (gy - unitC v) * srE th))))
                           (cTwo * (sgC rs * sgC rs))
                 - Ideal.div (((-(gx - unitC u)) * srE th + (gy - unitC v) * crE th)
                              * ((-(gx - unitC u)) * srE th + (gy - unitC v) * crE th))
                           (cTwo * (gmC gm * gmC gm))))
  * Ideal.cos (fqE rf * ((gx - unitC u) * crE th + (gy - unitC v) * srE th) + phE ps)

end Cert.Gabor

end
-- ==== Proof.SpecArr.lean ====
/-
  The two programs' results as functions of the argument arrays.

  At channel `ch` and pixel `(h, w)` both programs clip to [-1, 1] the sum over the 256 gabors of a summand
  (Spec.lean) that reads the pixel's two coordinates, the gabor's six scalar parameters and its phase and amplitude for
  the channel.  The kernel's sum is taken from its fourteen per-gabor columns (`kPixCols`), which the host
  operations before the launch compute from the raw parameters (`kPix`); the reference's sum starts from the
  literal `0.0` (`rPix`).
-/
import proofs.«422772_j1898375545669_3_alg».proof.Proof.Spec
import Idealize.ShloMosaic.Lib.ValueIdx

noncomputable section

namespace Cert.Gabor

open Idealize.ShloMosaic Idealize.ShloMosaic.ValueIdx

/-- a vector over the gabors -/ abbrev Sg : Shape := ⟨1, ![256]⟩
/-- per gabor and channel -/ abbrev Sg3 : Shape := ⟨2, ![256, 3]⟩
/-- a column over the gabors -/ abbrev Scol : Shape := ⟨2, ![256, 1]⟩
/-- the image -/ abbrev Simg : Shape := ⟨2, ![512, 512]⟩
/-- sixteen rows of the image -/ abbrev Srows : Shape := ⟨2, ![16, 512]⟩
/-- the kernel's output block: sixteen rows, three channels -/ abbrev Sblk : Shape := ⟨3, ![16, 3, 512]⟩
/-- the kernel's output array: row, channel, column -/ abbrev Shcw : Shape := ⟨3, ![512, 3, 512]⟩
/-- the result: channel, row, column -/ abbrev Schw : Shape := ⟨3, ![3, 512, 512]⟩

/-- The kernel's pixel from eight shared columns, the channel's two columns and the pixel's coordinates. -/
def kPixCols (x0 x1 x2 x3 x4 x5 x6 x7 xa xn : Scol.Idx → EReal) (gx gy : EReal) : EReal :=
  clipE cNeg1 cOne (∑ g : Fin 256, kTerm (x0 (ix2 g 0)) (x1 (ix2 g 0)) (x2 (ix2 g 0)) (x3 (ix2 g 0)) (x4 (ix2 g 0))
    (x5 (ix2 g 0)) (x6 (ix2 g 0)) (x7 (ix2 g 0)) (xa (ix2 g 0)) (xn (ix2 g 0)) gx gy)

/-- The kernel's pixel from the raw argument arrays. -/
def kPix (gx gy : Simg.Idx → EReal) (u v th rs rf gm : Sg.Idx → EReal) (ps am : Sg3.Idx → EReal)
    (ch : Fin 3) (h w : Fin 512) : EReal :=
  clipE cNeg1 cOne (∑ g : Fin 256, kTermRaw (gx (ix2 h w)) (gy (ix2 h w)) (u (ix1 g)) (v (ix1 g)) (th (ix1 g))
    (rs (ix1 g)) (rf (ix1 g)) (gm (ix1 g)) (ps (ix2 g ch)) (am (ix2 g ch)))

/-- The reference's pixel from the raw argument arrays. -/
def rPix (gx gy : Simg.Idx → EReal) (u v th rs rf gm : Sg.Idx → EReal) (ps am : Sg3.Idx → EReal)
    (ch : Fin 3) (h w : Fin 512) : EReal :=
  clipE cNeg1 cOne (cZero + ∑ g : Fin 256, rTermRaw (gx (ix2 h w)) (gy (ix2 h w)) (u (ix1 g)) (v (ix1 g)) (th (ix1 g))
    (rs (ix1 g)) (rf (ix1 g)) (gm (ix1 g)) (ps (ix2 g ch)) (am (ix2 g ch)))

/-- One of three by a channel number. -/
def pick3 {α : Type} (k : Nat) (a b c : α) : α := if k = 0 then a else if k = 1 then b else c

/-- The kernel's output block (row in the block, channel, column) from its sixteen input blocks: the eight shared
    columns, the three A·cos φ and the three -(A·sin φ) columns, and the two coordinate blocks of sixteen rows. -/
def blkG (x0 x1 x2 x3 x4 x5 x6 x7 x8 x9 x10 x11 x12 x13 : Scol.Idx → EReal) (x14 x15 : Srows.Idx → EReal) :
    Sblk.Idx → EReal := fun y =>
  kPixCols x0 x1 x2 x3 x4 x5 x6 x7 (pick3 (y 1).val x8 x9 x10) (pick3 (y 1).val x11 x12 x13)
    (x14 (ix2 ⟨(y 0).val, (y 0).isLt⟩ ⟨(y 2).val, (y 2).isLt⟩))
    (x15 (ix2 ⟨(y 0).val, (y 0).isLt⟩ ⟨(y 2).val, (y 2).isLt⟩))

end Cert.Gabor

end
-- ==== Proof.BlockPix.lean ====
/-
  From the kernel's output block to its pixel.

  A block of sixteen rows is launched with the fourteen per-gabor columns and the sixteen rows of the two coordinate
  grids.  Where the columns hold the per-gabor functions of the raw parameters and the two row blocks hold the image's
  coordinates at pixel (h, w), the block's entry at channel ch is the kernel's pixel (ch, h, w) of the raw arrays.
-/
import proofs.«422772_j1898375545669_3_alg».proof.Proof.SpecArr

noncomputable section

namespace Cert.Gabor

open Idealize.ShloMosaic Idealize.ShloMosaic.ValueIdx

theorem blkG_eq_kPix (x0 x1 x2 x3 x4 x5 x6 x7 x8 x9 x10 x11 x12 x13 : Scol.Idx → EReal) (x14 x15 : Srows.Idx → EReal)
    (gx gy : Simg.Idx → EReal) (u v th rs rf gm : Sg.Idx → EReal) (ps am : Sg3.Idx → EReal)
    (h0 : ∀ g : Fin 256, x0 (ix2 g 0) = crE (th (ix1 g)))
    (h1 : ∀ g : Fin 256, x1 (ix2 g 0) = srE (th (ix1 g)))
    (h2 : ∀ g : Fin 256, x2 (ix2 g 0) = unitC (u (ix1 g)))
    (h3 : ∀ g : Fin 256, x3 (ix2 g 0) = unitC (v (ix1 g)))
    (h4 : ∀ g : Fin 256, x4 (ix2 g 0) = aE (th (ix1 g)) (rs (ix1 g)) (gm (ix1 g)))
    (h5 : ∀ g : Fin 256, x5 (ix2 g 0) = bE (th (ix1 g)) (rs (ix1 g)) (gm (ix1 g)))
    (h6 : ∀ g : Fin 256, x6 (ix2 g 0) = cE (th (ix1 g)) (rs (ix1 g)) (gm (ix1 g)))
    (h7 : ∀ g : Fin 256, x7 (ix2 g 0) = fqE (rf (ix1 g)))
    (h8 : ∀ g : Fin 256, x8 (ix2 g 0) = acE (ps (ix2 g 0)) (am (ix2 g 0)))
    (h9 : ∀ g : Fin 256, x9 (ix2 g 0) = acE (ps (ix2 g 1)) (am (ix2 g 1)))
    (h10 : ∀ g : Fin 256, x10 (ix2 g 0) = acE (ps (ix2 g 2)) (am (ix2 g 2)))
    (h11 : ∀ g : Fin 256, x11 (ix2 g 0) = nasE (ps (ix2 g 0)) (am (ix2 g 0)))
    (h12 : ∀ g : Fin 256, x12 (ix2 g 0) = nasE (ps (ix2 g 1)) (am (ix2 g 1)))
    (h13 : ∀ g : Fin 256, x13 (ix2 g 0) = nasE (ps (ix2 g 2)) (am (ix2 g 2)))
    (y : Sblk.Idx) (ch : Fin 3) (h w : Fin 512) (hch : (y 1).val = ch.val)
    (hgx : x14 (ix2 ⟨(y 0).val, (y 0).isLt⟩ ⟨(y 2).val, (y 2).isLt⟩) = gx (ix2 h w))
    (hgy : x15 (ix2 ⟨(y 0).val, (y 0).isLt⟩ ⟨(y 2).val, (y 2).isLt⟩) = gy (ix2 h w)) :
    blkG x0 x1 x2 x3 x4 x5 x6 x7 x8 x9 x10 x11 x12 x13 x14 x15 y = kPix gx gy u v th rs rf gm ps am ch h w := by
  unfold blkG kPixCols kPix kTermRaw
  rw [hgx, hgy, hch]
  refine congrArg (clipE cNeg1 cOne) (Finset.sum_congr rfl fun g _ => ?_)
  rw [h0 g, h1 g, h2 g, h3 g, h4 g, h5 g, h6 g, h7 g]
  rcases ch with ⟨k, hk⟩
  interval_cases k
  · simp only [pick3, if_true]; rw [h8 g, h11 g]; rfl
  · simp only [pick3, one_ne_zero, if_false, if_true]; rw [h9 g, h12 g]; rfl
  · simp only [pick3, OfNat.ofNat_ne_zero, OfNat.ofNat_ne_one, if_false]; rw [h10 g, h13 g]; rfl

end Cert.Gabor

end
-- ==== Proof.KHost.lean ====
/-
  The fourteen per-gabor columns the kernel is launched with, as functions of the raw parameters.

  Before the launch the host clips the parameters, takes cosine and sine of the orientation and of the phases, forms the
  frequency, the two reciprocals 1/(2σ²) and 1/(2γ²), the three coefficients of the quadratic form and the products
  A·cos φ and -(A·sin φ), and reshapes each [256] vector (or a column sliced out of a [256, 3] matrix) into a [256, 1]
  column.  Read at gabor `g`, each column is the corresponding scalar function of Spec.lean at the gabor's parameters.

  The proof has three layers.  The host's arithmetic is first written as functions of whole vectors (`crV`, `aV`, …),
  mirroring the scalar functions of Spec.lean one for one; read at an index each is its scalar counterpart, because every
  operation involved acts coordinate by coordinate and a broadcast scalar is the same at every index.  Then the
  contents of the fourteen columns when the region is entered are identified, all at once, with reshapes (and slices)
  of those vector functions of the argument arrays (`cols`).  Last, a [256] vector reshaped to a [256, 1] column holds at
  row `g` the vector's entry `g` (the row-major positions agree: g·1 + 0 = g), and column `k` sliced out of a [256, 3]
  matrix holds at row `g` the matrix's entry `(g, k)`.
-/
import proofs.«422772_j1898375545669_3_alg».proof.Proof.Gen.KernelIdeal.Frame
import proofs.«422772_j1898375545669_3_alg».proof.Proof.SpecArr
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.HostValue

open Cert.KernelIdeal Cert.KernelIdeal.Gen Cert.Gabor
open Idealize.ShloMosaic Idealize.ShloMosaic.TcCoe Idealize.ShloMosaic.ValueIdx Idealize.SL.Sem

/-! ## The host's arithmetic on whole vectors -/

/-- The scalar with bit pattern `b`, broadcast over a shape. -/
def bcS (t : Shape) (h : S_.BroadcastsInDim t (![] : Fin 0 → Fin t.rank)) (b : BitVec 32) : t.Idx → EReal :=
  broadcastInDim t ![] h (constant (F := Ideal) S_ .f32 b)

/-- A vector clipped between two scalars: the upper bound against the maximum of the lower bound and the vector. -/
def clipV (t : Shape) (h : S_.BroadcastsInDim t (![] : Fin 0 → Fin t.rank)) (lo hi : BitVec 32) (x : t.Idx → EReal) :
    t.Idx → EReal :=
  minimumf (F := Ideal) (φ := .f32) (bcS t h hi) (maximumf (F := Ideal) (φ := .f32) (bcS t h lo) x)

/-- A broadcast scalar is that scalar at every index. -/
theorem bcS_apply (t : Shape) (h : S_.BroadcastsInDim t (![] : Fin 0 → Fin t.rank)) (b : BitVec 32) (i : t.Idx) :
    bcS t h b i = Ideal.ofBits .f32 b := rfl

/-- Clipping a vector clips each entry. -/
theorem clipV_apply (t : Shape) (h : S_.BroadcastsInDim t (![] : Fin 0 → Fin t.rank)) (lo hi : BitVec 32)
    (x : t.Idx → EReal) (i : t.Idx) :
    clipV t h lo hi x i = clipE (Ideal.ofBits .f32 lo) (Ideal.ofBits .f32 hi) (x i) := rfl

/-- a scalar at every gabor -/
def k1 (b : BitVec 32) : S256.Idx → EReal := bcS S256 Facts₀.bcast_S_S256 b
/-- a scalar at every gabor and channel -/
def k3 (b : BitVec 32) : S256x3.Idx → EReal := bcS S256x3 Facts₀.bcast_S_S256x3 b
/-- a per-gabor vector clipped -/
def cl (lo hi : BitVec 32) (x : S256.Idx → EReal) : S256.Idx → EReal := clipV S256 Facts₀.bcast_S_S256 lo hi x
/-- a per-gabor-and-channel matrix clipped -/
def cl3 (lo hi : BitVec 32) (x : S256x3.Idx → EReal) : S256x3.Idx → EReal := clipV S256x3 Facts₀.bcast_S_S256x3 lo hi x

/-- the clipped orientations in radians -/
def thV (th : S256.Idx → EReal) : S256.Idx → EReal :=
  mulf (F := Ideal) (φ := .f32) (cl 0xC0000000#32 0x40000000#32 th) (k1 0x40C90FDB#32)
/-- their cosines -/
def crV (th : S256.Idx → EReal) : S256.Idx → EReal := Host.cos (F := Ideal) (φ := .f32) (thV th)
/-- their sines -/
def srV (th : S256.Idx → EReal) : S256.Idx → EReal := Host.sin (F := Ideal) (φ := .f32) (thV th)
/-- the carriers' frequencies -/
def fqV (rf : S256.Idx → EReal) : S256.Idx → EReal :=
  Host.divf (F := Ideal) (φ := .f32) (k1 0x40C90FDB#32) (Host.exp (F := Ideal) (φ := .f32) (cl 0xC0A00000#32 0x40A00000#32 rf))
/-- the clipped phases in radians -/
def phV (ps : S256x3.Idx → EReal) : S256x3.Idx → EReal :=
  mulf (F := Ideal) (φ := .f32) (cl3 0xBF800000#32 0x3F800000#32 ps) (k3 0x40C90FDB#32)
/-- the reciprocals 1 / (2·s·s) of a vector of clipped widths -/
def inv2V (s : S256.Idx → EReal) : S256.Idx → EReal :=
  Host.divf (F := Ideal) (φ := .f32) (k1 0x3F800000#32)
    (mulf (F := Ideal) (φ := .f32) (mulf (F := Ideal) (φ := .f32) (k1 0x40000000#32) s) s)
/-- the clipped widths along the carrier -/
def sgV (rs : S256.Idx → EReal) : S256.Idx → EReal := cl 0x3A83126F#32 0x3F800000#32 rs
/-- the clipped widths across the carrier -/
def gmV (gm : S256.Idx → EReal) : S256.Idx → EReal := cl 0x38D1B717#32 0x3F800000#32 gm
/-- the coefficients of dx² -/
def aV (th rs gm : S256.Idx → EReal) : S256.Idx → EReal :=
  Host.negf (F := Ideal) (φ := .f32) (addf (F := Ideal) (φ := .f32)
    (mulf (F := Ideal) (φ := .f32) (mulf (F := Ideal) (φ := .f32) (crV th) (crV th)) (inv2V (sgV rs)))
    (mulf (F := Ideal) (φ := .f32) (mulf (F := Ideal) (φ := .f32) (srV th) (srV th)) (inv2V (gmV gm))))
/-- the coefficients of dx·dy -/
def bV (th rs gm : S256.Idx → EReal) : S256.Idx → EReal :=
  mulf (F := Ideal) (φ := .f32)
    (mulf (F := Ideal) (φ := .f32) (mulf (F := Ideal) (φ := .f32) (k1 0xC0000000#32) (crV th)) (srV th))
    (subf (F := Ideal) (φ := .f32) (inv2V (sgV rs)) (inv2V (gmV gm)))
/-- the coefficients of dy² -/
def cV (th rs gm : S256.Idx → EReal) : S256.Idx → EReal :=
  Host.negf (F := Ideal) (φ := .f32) (addf (F := Ideal) (φ := .f32)
    (mulf (F := Ideal) (φ := .f32) (mulf (F := Ideal) (φ := .f32) (srV th) (srV th)) (inv2V (sgV rs)))
    (mulf (F := Ideal) (φ := .f32) (mulf (F := Ideal) (φ := .f32) (crV th) (crV th)) (inv2V (gmV gm))))
/-- the products A·cos φ -/
def acV (ps am : S256x3.Idx → EReal) : S256x3.Idx → EReal :=
  mulf (F := Ideal) (φ := .f32) (cl3 0x00000000#32 0x3F800000#32 am) (Host.cos (F := Ideal) (φ := .f32) (phV ps))
/-- the products -(A·sin φ) -/
def nasV (ps am : S256x3.Idx → EReal) : S256x3.Idx → EReal :=
  Host.negf (F := Ideal) (φ := .f32)
    (mulf (F := Ideal) (φ := .f32) (cl3 0x00000000#32 0x3F800000#32 am) (Host.sin (F := Ideal) (φ := .f32) (phV ps)))

/-! Read at an index, each is its scalar counterpart. -/

theorem unit_apply (x : S256.Idx → EReal) (i : S256.Idx) : cl 0xBF800000#32 0x3F800000#32 x i = unitC (x i) := rfl
theorem crV_apply (th : S256.Idx → EReal) (i : S256.Idx) : crV th i = crE (th i) := rfl
theorem srV_apply (th : S256.Idx → EReal) (i : S256.Idx) : srV th i = srE (th i) := rfl
theorem fqV_apply (rf : S256.Idx → EReal) (i : S256.Idx) : fqV rf i = fqE (rf i) := rfl
theorem inv2V_apply (s : S256.Idx → EReal) (i : S256.Idx) : inv2V s i = inv2 (s i) := rfl
theorem sgV_apply (rs : S256.Idx → EReal) (i : S256.Idx) : sgV rs i = sgC (rs i) := rfl
theorem gmV_apply (gm : S256.Idx → EReal) (i : S256.Idx) : gmV gm i = gmC (gm i) := rfl
theorem aV_apply (th rs gm : S256.Idx → EReal) (i : S256.Idx) : aV th rs gm i = aE (th i) (rs i) (gm i) := rfl
theorem bV_apply (th rs gm : S256.Idx → EReal) (i : S256.Idx) : bV th rs gm i = bE (th i) (rs i) (gm i) := rfl
theorem cV_apply (th rs gm : S256.Idx → EReal) (i : S256.Idx) : cV th rs gm i = cE (th i) (rs i) (gm i) := rfl
theorem acV_apply (ps am : S256x3.Idx → EReal) (i : S256x3.Idx) : acV ps am i = acE (ps i) (am i) := rfl
theorem nasV_apply (ps am : S256x3.Idx → EReal) (i : S256x3.Idx) : nasV ps am i = nasE (ps i) (am i) := rfl

/-! ## A reshape and a slice read at a gabor -/

/-- A [256] vector reshaped to a [256, 1] column holds at row `g` the vector's entry `g`. -/
theorem cast_col {α : Type} (x : S256.Idx → α) (h : S256.ShapeCasts S256x1) (g : Fin 256) :
    shapeCast S256x1 x h (ix2 g 0) = x (ix1 g) :=
  shapeCast_apply x h _ _ (by
    rw [Shape.rowMajor_val_one, Shape.rowMajor_val_two]
    show g.val = g.val * 1 + 0
    omega)

/-- A [256, 1] column reshaped to a [256] vector holds at `g` the column's row `g`. -/
theorem cast_vec {α : Type} (x : S256x1.Idx → α) (h : S256x1.ShapeCasts S256) (g : Fin 256) :
    shapeCast S256 x h (ix1 g) = x (ix2 g 0) :=
  shapeCast_apply x h _ _ (by
    rw [Shape.rowMajor_val_two, Shape.rowMajor_val_one]
    show g.val * 1 + 0 = g.val
    omega)

/-- a per-gabor vector as a column -/
def col (x : S256.Idx → EReal) : S256x1.Idx → EReal := shapeCast S256x1 x Facts₀.shapeCasts_S256_S256x1

/-- channel `k` of a per-gabor-and-channel matrix as a column: sliced out, flattened, and made a column again -/
def colOf (k : Nat) (h : S256x3.Slices ![0, k] S256x1) (x : S256x3.Idx → EReal) : S256x1.Idx → EReal :=
  col (shapeCast S256 (extractStridedSlice S256x1 ![0, k] x h) Facts₀.shapeCasts_S256x1_S256)

theorem col_apply (x : S256.Idx → EReal) (g : Fin 256) : col x (ix2 g 0) = x (ix1 g) := cast_col x _ g

theorem colOf_apply (k : Nat) (h : S256x3.Slices ![0, k] S256x1) (x : S256x3.Idx → EReal) (g : Fin 256) (kk : Fin 3)
    (hk : kk.val = k) : colOf k h x (ix2 g 0) = x (ix2 g kk) :=
  (cast_col _ _ g).trans ((cast_vec _ _ g).trans (slice2_axis1_apply k x h g 0 kk (by rw [hk]; rfl)))

variable (m : (ℓ : Loc nD τ sig) → Buf (Elt Ideal) ℓ)

/-- the raw parameter arrays on core `c` -/
abbrev argU (c : Dev nD) : Sg.Idx → EReal := m ((c : Thread nD τ).loc main_arg2)
abbrev argV (c : Dev nD) : Sg.Idx → EReal := m ((c : Thread nD τ).loc main_arg3)
abbrev argTh (c : Dev nD) : Sg.Idx → EReal := m ((c : Thread nD τ).loc main_arg4)
abbrev argRs (c : Dev nD) : Sg.Idx → EReal := m ((c : Thread nD τ).loc main_arg5)
abbrev argRf (c : Dev nD) : Sg.Idx → EReal := m ((c : Thread nD τ).loc main_arg6)
abbrev argGm (c : Dev nD) : Sg.Idx → EReal := m ((c : Thread nD τ).loc main_arg7)
abbrev argPs (c : Dev nD) : Sg3.Idx → EReal := m ((c : Thread nD τ).loc main_arg8)
abbrev argAm (c : Dev nD) : Sg3.Idx → EReal := m ((c : Thread nD τ).loc main_arg9)

/-! ## The columns when the region is entered -/

set_option maxHeartbeats 40000000 in
/-- The fourteen columns, whole: each is a reshape (for the per-channel ones, of a slice) of the host's arithmetic on
    the argument arrays.  Every host operation before the region writes a buffer of its own, so a buffer's contents
    when the region is entered are its operation's function of its operands' contents. -/
theorem cols (c : Dev nD) :
    (V (F := Ideal) m c main_v49 : Scol.Idx → EReal) = col (crV (argTh m c))
    ∧ (V (F := Ideal) m c main_v50 : Scol.Idx → EReal) = col (srV (argTh m c))
    ∧ (V (F := Ideal) m c main_v51 : Scol.Idx → EReal) = col (cl 0xBF800000#32 0x3F800000#32 (argU m c))
    ∧ (V (F := Ideal) m c main_v52 : Scol.Idx → EReal) = col (cl 0xBF800000#32 0x3F800000#32 (argV m c))
    ∧ (V (F := Ideal) m c main_v53 : Scol.Idx → EReal) = col (aV (argTh m c) (argRs m c) (argGm m c))
    ∧ (V (F := Ideal) m c main_v54 : Scol.Idx → EReal) = col (bV (argTh m c) (argRs m c) (argGm m c))
    ∧ (V (F := Ideal) m c main_v55 : Scol.Idx → EReal) = col (cV (argTh m c) (argRs m c) (argGm m c))
    ∧ (V (F := Ideal) m c main_v56 : Scol.Idx → EReal) = col (fqV (argRf m c))
    ∧ (V (F := Ideal) m c main_v59 : Scol.Idx → EReal) = colOf 0 Facts₀.slices_S256x3_S256x1_0_0 (acV (argPs m c) (argAm m c))
    ∧ (V (F := Ideal) m c main_v62 : Scol.Idx → EReal) = colOf 1 Facts₀.slices_S256x3_S256x1_0_1 (acV (argPs m c) (argAm m c))
    ∧ (V (F := Ideal) m c main_v65 : Scol.Idx → EReal) = colOf 2 Facts₀.slices_S256x3_S256x1_0_2 (acV (argPs m c) (argAm m c))
    ∧ (V (F := Ideal) m c main_v68 : Scol.Idx → EReal) = colOf 0 Facts₀.slices_S256x3_S256x1_0_0 (nasV (argPs m c) (argAm m c))
    ∧ (V (F := Ideal) m c main_v71 : Scol.Idx → EReal) = colOf 1 Facts₀.slices_S256x3_S256x1_0_1 (nasV (argPs m c) (argAm m c))
    ∧ (V (F := Ideal) m c main_v74 : Scol.Idx → EReal) = colOf 2 Facts₀.slices_S256x3_S256x1_0_2 (nasV (argPs m c) (argAm m c)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
  after_results_simp
  refine ⟨?_, ?_, ?_, ?_, ?_, ?_, ?_, ?_, ?_, ?_, ?_, ?_, ?_, ?_⟩ <;> rfl

/-! ## Each column at a gabor -/

/-- window 0: cos of the orientation -/
theorem col_cr (c : Dev nD) (g : Fin 256) :
    (V (F := Ideal) m c main_v49 : Scol.Idx → EReal) (ix2 g 0) = crE (argTh m c (ix1 g)) :=
  (congrFun (cols m c).1 (ix2 g 0)).trans ((col_apply _ g).trans (crV_apply _ _))
/-- window 1: sin of the orientation -/
theorem col_sr (c : Dev nD) (g : Fin 256) :
    (V (F := Ideal) m c main_v50 : Scol.Idx → EReal) (ix2 g 0) = srE (argTh m c (ix1 g)) :=
  (congrFun (cols m c).2.1 (ix2 g 0)).trans ((col_apply _ g).trans (srV_apply _ _))
/-- window 2: the clipped centre abscissa -/
theorem col_u (c : Dev nD) (g : Fin 256) :
    (V (F := Ideal) m c main_v51 : Scol.Idx → EReal) (ix2 g 0) = unitC (argU m c (ix1 g)) :=
  (congrFun (cols m c).2.2.1 (ix2 g 0)).trans ((col_apply _ g).trans (unit_apply _ _))
/-- window 3: the clipped centre ordinate -/
theorem col_v (c : Dev nD) (g : Fin 256) :
    (V (F := Ideal) m c main_v52 : Scol.Idx → EReal) (ix2 g 0) = unitC (argV m c (ix1 g)) :=
  (congrFun (cols m c).2.2.2.1 (ix2 g 0)).trans ((col_apply _ g).trans (unit_apply _ _))
/-- window 4: the coefficient of dx² -/
theorem col_a (c : Dev nD) (g : Fin 256) :
    (V (F := Ideal) m c main_v53 : Scol.Idx → EReal) (ix2 g 0)
      = aE (argTh m c (ix1 g)) (argRs m c (ix1 g)) (argGm m c (ix1 g)) :=
  (congrFun (cols m c).2.2.2.2.1 (ix2 g 0)).trans ((col_apply _ g).trans (aV_apply _ _ _ _))
/-- window 5: the coefficient of dx·dy -/
theorem col_b (c : Dev nD) (g : Fin 256) :
    (V (F := Ideal) m c main_v54 : Scol.Idx → EReal) (ix2 g 0)
      = bE (argTh m c (ix1 g)) (argRs m c (ix1 g)) (argGm m c (ix1 g)) :=
  (congrFun (cols m c).2.2.2.2.2.1 (ix2 g 0)).trans ((col_apply _ g).trans (bV_apply _ _ _ _))
/-- window 6: the coefficient of dy² -/
theorem col_c (c : Dev nD) (g : Fin 256) :
    (V (F := Ideal) m c main_v55 : Scol.Idx → EReal) (ix2 g 0)
      = cE (argTh m c (ix1 g)) (argRs m c (ix1 g)) (argGm m c (ix1 g)) :=
  (congrFun (cols m c).2.2.2.2.2.2.1 (ix2 g 0)).trans ((col_apply _ g).trans (cV_apply _ _ _ _))
/-- window 7: the carrier's frequency -/
theorem col_fq (c : Dev nD) (g : Fin 256) :
    (V (F := Ideal) m c main_v56 : Scol.Idx → EReal) (ix2 g 0) = fqE (argRf m c (ix1 g)) :=
  (congrFun (cols m c).2.2.2.2.2.2.2.1 (ix2 g 0)).trans ((col_apply _ g).trans (fqV_apply _ _))
/-- windows 8, 9, 10: A·cos φ of channel 0, 1, 2 -/
theorem col_ac0 (c : Dev nD) (g : Fin 256) :
    (V (F := Ideal) m c main_v59 : Scol.Idx → EReal) (ix2 g 0) = acE (argPs m c (ix2 g 0)) (argAm m c (ix2 g 0)) :=
  (congrFun (cols m c).2.2.2.2.2.2.2.2.1 (ix2 g 0)).trans ((colOf_apply 0 _ _ g 0 rfl).trans (acV_apply _ _ _))
theorem col_ac1 (c : Dev nD) (g : Fin 256) :
    (V (F := Ideal) m c main_v62 : Scol.Idx → EReal) (ix2 g 0) = acE (argPs m c (ix2 g 1)) (argAm m c (ix2 g 1)) :=
  (congrFun (cols m c).2.2.2.2.2.2.2.2.2.1 (ix2 g 0)).trans ((colOf_apply 1 _ _ g 1 rfl).trans (acV_apply _ _ _))
theorem col_ac2 (c : Dev nD) (g : Fin 256) :
    (V (F := Ideal) m c main_v65 : Scol.Idx → EReal) (ix2 g 0) = acE (argPs m c (ix2 g 2)) (argAm m c (ix2 g 2)) :=
  (congrFun (cols m c).2.2.2.2.2.2.2.2.2.2.1 (ix2 g 0)).trans ((colOf_apply 2 _ _ g 2 rfl).trans (acV_apply _ _ _))
/-- windows 11, 12, 13: -(A·sin φ) of channel 0, 1, 2 -/
theorem col_nas0 (c : Dev nD) (g : Fin 256) :
    (V (F := Ideal) m c main_v68 : Scol.Idx → EReal) (ix2 g 0) = nasE (argPs m c (ix2 g 0)) (argAm m c (ix2 g 0)) :=
  (congrFun (cols m c).2.2.2.2.2.2.2.2.2.2.2.1 (ix2 g 0)).trans ((colOf_apply 0 _ _ g 0 rfl).trans (nasV_apply _ _ _))
theorem col_nas1 (c : Dev nD) (g : Fin 256) :
    (V (F := Ideal) m c main_v71 : Scol.Idx → EReal) (ix2 g 0) = nasE (argPs m c (ix2 g 1)) (argAm m c (ix2 g 1)) :=
  (congrFun (cols m c).2.2.2.2.2.2.2.2.2.2.2.2.1 (ix2 g 0)).trans ((colOf_apply 1 _ _ g 1 rfl).trans (nasV_apply _ _ _))
theorem col_nas2 (c : Dev nD) (g : Fin 256) :
    (V (F := Ideal) m c main_v74 : Scol.Idx → EReal) (ix2 g 0) = nasE (argPs m c (ix2 g 2)) (argAm m c (ix2 g 2)) :=
  (congrFun (cols m c).2.2.2.2.2.2.2.2.2.2.2.2.2 (ix2 g 0)).trans ((colOf_apply 2 _ _ g 2 rfl).trans (nasV_apply _ _ _))

end Cert.KernelIdeal.HostValue

end
-- ==== Proof.KPayAuxRows.lean ====
/-
  The forms of a stored piece of the kernel body.

  The body's text names the same row computation in three different ways, repeating every three rows, and each way
  has its own three channel stores: nine forms of stored piece (and a tenth for the very last store, whose clip and
  whose cast are named apart).  Each form is shown to be one function `rowPiece` of the ten columns its channel uses
  and the row's two loaded coordinate rows; and `rowPiece` at a piece index is `Cert.Gabor.blkG` at the block index
  under the piece.
-/
import proofs.«422772_j1898375545669_3_alg».proof.Proof.Gen.KernelIdeal.Skeleton
import proofs.«422772_j1898375545669_3_alg».proof.Proof.SpecArr
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BodyValue

open Cert.KernelIdeal Cert.KernelIdeal.Gen Cert.Gabor
open Idealize.ShloMosaic Idealize.ShloMosaic.TcCoe Idealize.ShloMosaic.ValueIdx Idealize.SL.Sem

/-! ## Layout operations of the body read at an index -/

/-- A gabor column broadcast over the pixel columns reads the column's entry of that gabor. -/
theorem bcol (c : FVec Ideal S256x1 .f32) (g : Fin 256) (w : Fin 512) :
    broadcastTo S256x512 c broadcasts_S256x1_S256x512 (ix2 g w) = c (ix2 g 0) :=
  broadcastTo_apply c broadcasts_S256x1_S256x512 (ix2 g w) (ix2 g 0)
    (fun a => match a with | ⟨0, _⟩ => rfl | ⟨1, _⟩ => rfl)

/-- A pixel row broadcast over the gabors reads the row's entry of that pixel column. -/
theorem brow (r : FVec Ideal S1x512 .f32) (g : Fin 256) (w : Fin 512) :
    broadcastTo S256x512 r broadcasts_S1x512_S256x512 (ix2 g w) = r (ix2 0 w) :=
  broadcastTo_apply r broadcasts_S1x512_S256x512 (ix2 g w) (ix2 0 w)
    (fun a => match a with | ⟨0, _⟩ => rfl | ⟨1, _⟩ => rfl)

/-- Flattening a one-row block and restoring the row axis changes nothing. -/
theorem rowcast (r : FVec Ideal S1x512 .f32) :
    shapeCast S1x512 (shapeCast S512 r shapeCasts_S1x512_S512) shapeCasts_S512_S1x512 = r :=
  shapeCast_shapeCast r shapeCasts_S1x512_S512 shapeCasts_S512_S1x512

/-- The sum over the gabor axis of a [256, 512] tile, at pixel column w. -/
theorem redsum (src : FVec Ideal S256x512 .f32) (w : Fin 512) :
    multiReduction .add [0] S512 src 0x00000000#32 reduces_S256x512_S512 (.inl rfl) rfl (ix1 w)
      = ∑ g : Fin 256, src (ix2 g w) := by
  refine (Ideal.multiReduction_add_single src 0x00000000#32 reduces_S256x512_S512 (.inl rfl) rfl (ix1 w)).trans ?_
  refine Finset.sum_congr rfl fun g _ => congrArg src ?_
  funext a
  match a with
  | ⟨0, _⟩ => exact Fin.ext rfl
  | ⟨1, _⟩ => exact Fin.ext rfl

/-- A lane vector stored as a [1, 1, 512] piece reads, at a piece index, its entry of that index's lane. -/
theorem lanecast (v : FVec Ideal S512 .f32) (x : S1x1x512.Idx) :
    shapeCast S1x1x512 v shapeCasts_S512_S1x1x512 x = v (ix1 ⟨(x 2).val, (x 2).isLt⟩) := by
  refine shapeCast_apply v shapeCasts_S512_S1x1x512 x (ix1 ⟨(x 2).val, (x 2).isLt⟩) ?_
  have h0 : (x 0).val = 0 := by have := (x 0).isLt; simp at this; omega
  have h1 : (x 1).val = 0 := by have := (x 1).isLt; simp at this; omega
  rw [Shape.rowMajor_val_one, Shape.rowMajor_val_three, h0, h1]
  show (x 2).val = (0 * 1 + 0) * 512 + (x 2).val
  omega

/-! ## The summand's factors, named

`kTerm` is `ac · (G · cos θ) + nas · (G · sin θ)` with `G` the exponential of the quadratic form in the offsets
`gx - u`, `gy - v` and `θ` the carrier's phase at the pixel. -/

/-- the exponential of the quadratic form -/
def gaussS (u v a b c gx gy : EReal) : EReal :=
  Ideal.exp (((a * (gx - u)) * (gx - u) + (b * (gx - u)) * (gy - v)) + (c * (gy - v)) * (gy - v))

/-- the carrier's phase -/
def argS (cr sr u v fq gx gy : EReal) : EReal := fq * ((gx - u) * cr + (gy - v) * sr)

theorem kTerm_eq (cr sr u v a b c fq ac nas gx gy : EReal) :
    kTerm cr sr u v a b c fq ac nas gx gy
      = ac * (gaussS u v a b c gx gy * Ideal.cos (argS cr sr u v fq gx gy))
        + nas * (gaussS u v a b c gx gy * Ideal.sin (argS cr sr u v fq gx gy)) := rfl

/-- an exponential, cosine or sine of a tile at an index is that of the entry -/
theorem vexp_apply {s : Shape} (v : FVec Ideal s .f32) (i : s.Idx) : exp v i = Ideal.exp (v i) := rfl
theorem vcos_apply {s : Shape} (v : FVec Ideal s .f32) (i : s.Idx) : cos v i = Ideal.cos (v i) := rfl
theorem vsin_apply {s : Shape} (v : FVec Ideal s .f32) (i : s.Idx) : sin v i = Ideal.sin (v i) := rfl

/-- the clip of a lane vector stored as a [1, 1, 512] piece -/
theorem clipcast (v : FVec Ideal S512 .f32) (x : S1x1x512.Idx) :
    shapeCast S1x1x512
        (minimumf (broadcast S512 (Scalar.ofBits (F := Ideal) .f32 0x3F800000#32))
          (maximumf (broadcast S512 (Scalar.ofBits (F := Ideal) .f32 0xBF800000#32)) v)) shapeCasts_S512_S1x1x512 x
      = clipE cNeg1 cOne (v (ix1 ⟨(x 2).val, (x 2).isLt⟩)) := by
  rw [lanecast]; rfl

/-! ## One row's stored piece -/

/-- What a row's store for one channel holds, as a function of the eight shared columns, the channel's two columns
    and the row's two loaded coordinate rows: at lane `w` the clipped sum over the gabors. -/
def rowPiece (c0 c1 c2 c3 c4 c5 c6 c7 ca cn : Scol.Idx → EReal) (gx gy : S1x512.Idx → EReal) : S1x1x512.Idx → EReal :=
  fun x => kPixCols c0 c1 c2 c3 c4 c5 c6 c7 ca cn
    (gx (ix2 0 ⟨(x 2).val, (x 2).isLt⟩)) (gy (ix2 0 ⟨(x 2).val, (x 2).isLt⟩))

/-! ## Rows 0, 3, 6, …: the tile's factors as the body of those rows names them -/

section RowA
variable (c0 c1 c2 c3 c4 c5 c6 c7 ca cn : FVec Ideal S256x1 .f32) (gx gy : Vec Ideal S1x512 .f32) (g : Fin 256) (w : Fin 512)

theorem pay16_apply : k0_pay16 c2 gx (ix2 g w) = gx (ix2 0 w) - c2 (ix2 g 0) := by
  unfold k0_pay16; simp only [subf_apply, rowcast, brow, bcol]

theorem pay17_apply : k0_pay17 c3 gy (ix2 g w) = gy (ix2 0 w) - c3 (ix2 g 0) := by
  unfold k0_pay17; simp only [subf_apply, rowcast, brow, bcol]

theorem pay18_apply : k0_pay18 c2 c3 c4 c5 c6 gx gy (ix2 g w)
    = gaussS (c2 (ix2 g 0)) (c3 (ix2 g 0)) (c4 (ix2 g 0)) (c5 (ix2 g 0)) (c6 (ix2 g 0)) (gx (ix2 0 w)) (gy (ix2 0 w)) := by
  unfold k0_pay18 gaussS; simp only [vexp_apply, addf_apply, mulf_apply, bcol, pay16_apply, pay17_apply]

theorem pay19_apply : k0_pay19 c0 c1 c2 c3 c7 gx gy (ix2 g w)
    = argS (c0 (ix2 g 0)) (c1 (ix2 g 0)) (c2 (ix2 g 0)) (c3 (ix2 g 0)) (c7 (ix2 g 0)) (gx (ix2 0 w)) (gy (ix2 0 w)) := by
  unfold k0_pay19 argS; simp only [addf_apply, mulf_apply, bcol, pay16_apply, pay17_apply]

theorem pay20_apply : k0_pay20 c0 c1 c2 c3 c4 c5 c6 c7 gx gy (ix2 g w)
    = gaussS (c2 (ix2 g 0)) (c3 (ix2 g 0)) (c4 (ix2 g 0)) (c5 (ix2 g 0)) (c6 (ix2 g 0)) (gx (ix2 0 w)) (gy (ix2 0 w))
      * Ideal.cos (argS (c0 (ix2 g 0)) (c1 (ix2 g 0)) (c2 (ix2 g 0)) (c3 (ix2 g 0)) (c7 (ix2 g 0)) (gx (ix2 0 w)) (gy (ix2 0 w))) := by
  unfold k0_pay20; simp only [vcos_apply, mulf_apply, pay18_apply, pay19_apply]

theorem pay21_apply : k0_pay21 c0 c1 c2 c3 c4 c5 c6 c7 gx gy (ix2 g w)
    = gaussS (c2 (ix2 g 0)) (c3 (ix2 g 0)) (c4 (ix2 g 0)) (c5 (ix2 g 0)) (c6 (ix2 g 0)) (gx (ix2 0 w)) (gy (ix2 0 w))
      * Ideal.sin (argS (c0 (ix2 g 0)) (c1 (ix2 g 0)) (c2 (ix2 g 0)) (c3 (ix2 g 0)) (c7 (ix2 g 0)) (gx (ix2 0 w)) (gy (ix2 0 w))) := by
  unfold k0_pay21; simp only [vsin_apply, mulf_apply, pay18_apply, pay19_apply]

theorem pay22_apply : k0_pay22 c0 c1 c2 c3 c4 c5 c6 c7 ca cn gx gy (ix1 w)
    = ∑ g : Fin 256, kTerm (c0 (ix2 g 0)) (c1 (ix2 g 0)) (c2 (ix2 g 0)) (c3 (ix2 g 0)) (c4 (ix2 g 0)) (c5 (ix2 g 0))
        (c6 (ix2 g 0)) (c7 (ix2 g 0)) (ca (ix2 g 0)) (cn (ix2 g 0)) (gx (ix2 0 w)) (gy (ix2 0 w)) := by
  unfold k0_pay22; rw [redsum]
  simp only [kTerm_eq, addf_apply, mulf_apply, bcol, pay20_apply, pay21_apply]

end RowA

section RowA'
variable (c0 c1 c2 c3 c4 c5 c6 c7 ca cn : FVec Ideal S256x1 .f32) (gx gy : Vec Ideal S1x512 .f32) (w : Fin 512)

theorem pay23_apply : k0_pay23 c0 c1 c2 c3 c4 c5 c6 c7 ca cn gx gy (ix1 w)
    = ∑ g : Fin 256, kTerm (c0 (ix2 g 0)) (c1 (ix2 g 0)) (c2 (ix2 g 0)) (c3 (ix2 g 0)) (c4 (ix2 g 0)) (c5 (ix2 g 0))
        (c6 (ix2 g 0)) (c7 (ix2 g 0)) (ca (ix2 g 0)) (cn (ix2 g 0)) (gx (ix2 0 w)) (gy (ix2 0 w)) := by
  unfold k0_pay23; rw [redsum]
  simp only [kTerm_eq, addf_apply, mulf_apply, bcol, pay20_apply, pay21_apply]

theorem pay24_apply : k0_pay24 c0 c1 c2 c3 c4 c5 c6 c7 ca cn gx gy (ix1 w)
    = ∑ g : Fin 256, kTerm (c0 (ix2 g 0)) (c1 (ix2 g 0)) (c2 (ix2 g 0)) (c3 (ix2 g 0)) (c4 (ix2 g 0)) (c5 (ix2 g 0))
        (c6 (ix2 g 0)) (c7 (ix2 g 0)) (ca (ix2 g 0)) (cn (ix2 g 0)) (gx (ix2 0 w)) (gy (ix2 0 w)) := by
  unfold k0_pay24; rw [redsum]
  simp only [kTerm_eq, addf_apply, mulf_apply, bcol, pay20_apply, pay21_apply]

/-- channel 0's store of those rows -/
theorem shapeA0 : k0_pay25 (k0_pay22 c0 c1 c2 c3 c4 c5 c6 c7 ca cn gx gy)
      (Scalar.ofBits .f32 0xBF800000#32) (Scalar.ofBits .f32 0x3F800000#32)
    = rowPiece c0 c1 c2 c3 c4 c5 c6 c7 ca cn gx gy := by
  funext x; unfold k0_pay25; rw [clipcast, pay22_apply]; rfl

/-- channel 1's -/
theorem shapeA1 : k0_pay26 (k0_pay23 c0 c1 c2 c3 c4 c5 c6 c7 ca cn gx gy)
    = rowPiece c0 c1 c2 c3 c4 c5 c6 c7 ca cn gx gy := by
  funext x; unfold k0_pay26; rw [clipcast, pay23_apply]; rfl

/-- channel 2's -/
theorem shapeA2 : k0_pay27 (k0_pay24 c0 c1 c2 c3 c4 c5 c6 c7 ca cn gx gy)
    = rowPiece c0 c1 c2 c3 c4 c5 c6 c7 ca cn gx gy := by
  funext x; unfold k0_pay27; rw [clipcast, pay24_apply]; rfl

/-- channel 2's of the last row, whose clip and whose cast to a piece are named apart -/
theorem shapeA2' : k0_pay1 (k0_pay207 (k0_pay24 c0 c1 c2 c3 c4 c5 c6 c7 ca cn gx gy))
    = rowPiece c0 c1 c2 c3 c4 c5 c6 c7 ca cn gx gy := by
  funext x; unfold k0_pay1 k0_pay207; rw [clipcast, pay24_apply]; rfl

end RowA'

/-! ## Rows 1, 4, 7, …: there the offsets and the quadratic form's first two products are named apart -/

section RowB
variable (c0 c1 c2 c3 c4 c5 c6 c7 ca cn : FVec Ideal S256x1 .f32) (gx gy : Vec Ideal S1x512 .f32) (g : Fin 256) (w : Fin 512)

theorem pay28_apply : k0_pay28 c2 gx (ix2 g w) = gx (ix2 0 w) - c2 (ix2 g 0) := by
  unfold k0_pay28; simp only [subf_apply, rowcast, brow, bcol]

theorem pay29_apply : k0_pay29 c3 gy (ix2 g w) = gy (ix2 0 w) - c3 (ix2 g 0) := by
  unfold k0_pay29; simp only [subf_apply, rowcast, brow, bcol]

theorem pay34_apply : k0_pay34 c0 c1 c6 c7 (k0_pay28 c2 gx) (k0_pay29 c3 gy) (k0_pay30 c2 c4 gx) (k0_pay31 c2 c3 c5 gx gy) (ix2 g w)
    = gaussS (c2 (ix2 g 0)) (c3 (ix2 g 0)) (c4 (ix2 g 0)) (c5 (ix2 g 0)) (c6 (ix2 g 0)) (gx (ix2 0 w)) (gy (ix2 0 w))
      * Ideal.cos (argS (c0 (ix2 g 0)) (c1 (ix2 g 0)) (c2 (ix2 g 0)) (c3 (ix2 g 0)) (c7 (ix2 g 0)) (gx (ix2 0 w)) (gy (ix2 0 w))) := by
  unfold k0_pay34 k0_pay32 k0_pay33 k0_pay30 k0_pay31 gaussS argS
  simp only [vcos_apply, vexp_apply, addf_apply, mulf_apply, bcol, pay28_apply, pay29_apply]

theorem pay35_apply : k0_pay35 c0 c1 c6 c7 (k0_pay28 c2 gx) (k0_pay29 c3 gy) (k0_pay30 c2 c4 gx) (k0_pay31 c2 c3 c5 gx gy) (ix2 g w)
    = gaussS (c2 (ix2 g 0)) (c3 (ix2 g 0)) (c4 (ix2 g 0)) (c5 (ix2 g 0)) (c6 (ix2 g 0)) (gx (ix2 0 w)) (gy (ix2 0 w))
      * Ideal.sin (argS (c0 (ix2 g 0)) (c1 (ix2 g 0)) (c2 (ix2 g 0)) (c3 (ix2 g 0)) (c7 (ix2 g 0)) (gx (ix2 0 w)) (gy (ix2 0 w))) := by
  unfold k0_pay35 k0_pay32 k0_pay33 k0_pay30 k0_pay31 gaussS argS
  simp only [vsin_apply, vexp_apply, addf_apply, mulf_apply, bcol, pay28_apply, pay29_apply]

/-- channel 0's store of those rows -/
theorem shapeB0 : k0_pay37 c0 c1 c6 c7 ca cn (k0_pay28 c2 gx) (k0_pay29 c3 gy) (k0_pay30 c2 c4 gx) (k0_pay31 c2 c3 c5 gx gy)
    = rowPiece c0 c1 c2 c3 c4 c5 c6 c7 ca cn gx gy := by
  funext x; unfold k0_pay37; rw [clipcast, redsum]
  simp only [rowPiece, kPixCols, kTerm_eq, addf_apply, mulf_apply, bcol, pay34_apply, pay35_apply]

/-- channel 1's -/
theorem shapeB1 : k0_pay39 (k0_pay38 c0 c1 c6 c7 ca cn (k0_pay28 c2 gx) (k0_pay29 c3 gy) (k0_pay30 c2 c4 gx) (k0_pay31 c2 c3 c5 gx gy))
    = rowPiece c0 c1 c2 c3 c4 c5 c6 c7 ca cn gx gy := by
  funext x; unfold k0_pay39 k0_pay38; rw [clipcast, redsum]
  simp only [rowPiece, kPixCols, kTerm_eq, addf_apply, mulf_apply, bcol, pay34_apply, pay35_apply]

/-- channel 2's -/
theorem shapeB2 : k0_pay40 (k0_pay36 c0 c1 c6 c7 ca cn (k0_pay28 c2 gx) (k0_pay29 c3 gy) (k0_pay30 c2 c4 gx) (k0_pay31 c2 c3 c5 gx gy))
    = rowPiece c0 c1 c2 c3 c4 c5 c6 c7 ca cn gx gy := by
  funext x; unfold k0_pay40 k0_pay36; rw [clipcast, redsum]
  simp only [rowPiece, kPixCols, kTerm_eq, addf_apply, mulf_apply, bcol, pay34_apply, pay35_apply]

end RowB

/-! ## Rows 2, 5, 8, …: there the two products with the exponential are shared and channel 0's first product is named apart -/

section RowC
variable (c0 c1 c2 c3 c4 c5 c6 c7 ca cn : FVec Ideal S256x1 .f32) (gx gy : Vec Ideal S1x512 .f32) (g : Fin 256) (w : Fin 512)

theorem pay41_apply : k0_pay41 c2 gx (ix2 g w) = gx (ix2 0 w) - c2 (ix2 g 0) := by
  unfold k0_pay41; simp only [subf_apply, rowcast, brow, bcol]

theorem pay42_apply : k0_pay42 c3 gy (ix2 g w) = gy (ix2 0 w) - c3 (ix2 g 0) := by
  unfold k0_pay42; simp only [subf_apply, rowcast, brow, bcol]

theorem pay45_apply : k0_pay45 c0 c1 c2 c3 c4 c5 c6 c7 gx gy (ix2 g w)
    = gaussS (c2 (ix2 g 0)) (c3 (ix2 g 0)) (c4 (ix2 g 0)) (c5 (ix2 g 0)) (c6 (ix2 g 0)) (gx (ix2 0 w)) (gy (ix2 0 w))
      * Ideal.cos (argS (c0 (ix2 g 0)) (c1 (ix2 g 0)) (c2 (ix2 g 0)) (c3 (ix2 g 0)) (c7 (ix2 g 0)) (gx (ix2 0 w)) (gy (ix2 0 w))) := by
  unfold k0_pay45 k0_pay43 k0_pay44 gaussS argS
  simp only [vcos_apply, vexp_apply, addf_apply, mulf_apply, bcol, pay41_apply, pay42_apply]

theorem pay46_apply : k0_pay46 c0 c1 c2 c3 c4 c5 c6 c7 gx gy (ix2 g w)
    = gaussS (c2 (ix2 g 0)) (c3 (ix2 g 0)) (c4 (ix2 g 0)) (c5 (ix2 g 0)) (c6 (ix2 g 0)) (gx (ix2 0 w)) (gy (ix2 0 w))
      * Ideal.sin (argS (c0 (ix2 g 0)) (c1 (ix2 g 0)) (c2 (ix2 g 0)) (c3 (ix2 g 0)) (c7 (ix2 g 0)) (gx (ix2 0 w)) (gy (ix2 0 w))) := by
  unfold k0_pay46 k0_pay43 k0_pay44 gaussS argS
  simp only [vsin_apply, vexp_apply, addf_apply, mulf_apply, bcol, pay41_apply, pay42_apply]

/-- channel 0's store of those rows -/
theorem shapeC0 : k0_pay49 (k0_pay46 c0 c1 c2 c3 c4 c5 c6 c7 gx gy) (k0_pay47 c0 c1 c2 c3 c4 c5 c6 c7 ca gx gy) (k0_pay48 cn)
    = rowPiece c0 c1 c2 c3 c4 c5 c6 c7 ca cn gx gy := by
  funext x; unfold k0_pay49 k0_pay47 k0_pay48; rw [clipcast, redsum]
  simp only [rowPiece, kPixCols, kTerm_eq, addf_apply, mulf_apply, bcol, pay45_apply, pay46_apply]

/-- channel 1's -/
theorem shapeC1 : k0_pay50 ca cn (k0_pay45 c0 c1 c2 c3 c4 c5 c6 c7 gx gy) (k0_pay46 c0 c1 c2 c3 c4 c5 c6 c7 gx gy)
    = rowPiece c0 c1 c2 c3 c4 c5 c6 c7 ca cn gx gy := by
  funext x; unfold k0_pay50; rw [clipcast, redsum]
  simp only [rowPiece, kPixCols, kTerm_eq, addf_apply, mulf_apply, bcol, pay45_apply, pay46_apply]

/-- channel 2's -/
theorem shapeC2 : k0_pay51 ca cn (k0_pay45 c0 c1 c2 c3 c4 c5 c6 c7 gx gy) (k0_pay46 c0 c1 c2 c3 c4 c5 c6 c7 gx gy)
    = rowPiece c0 c1 c2 c3 c4 c5 c6 c7 ca cn gx gy := by
  funext x; unfold k0_pay51; rw [clipcast, redsum]
  simp only [rowPiece, kPixCols, kTerm_eq, addf_apply, mulf_apply, bcol, pay45_apply, pay46_apply]

end RowC

/-! ## The columns as the body reads them, and a piece under its rectangle -/

section Cols
variable (c : Vec Ideal S256x1 .f32) (h : ∀ a, (![0, 0] : Fin 2 → Nat) a + S256x1.size a ≤ S256x1.size a)

/-- A column block loaded whole reads the block. -/
theorem ldcol : View.ld c (Rect.unit (s := S256x1) ![0, 0] S256x1.size h) = c :=
  View.ld_unit_zero (S := S256x1) (funext fun a => match a with | ⟨0, _⟩ => rfl | ⟨1, _⟩ => rfl) h c

/-- Each of the fourteen columns is cast to its own shape before use: still the block. -/
theorem col2 : k0_pay2 (View.ld c (Rect.unit (s := S256x1) ![0, 0] S256x1.size h)) = c := by rw [ldcol]; exact shapeCast_self c _
theorem col3 : k0_pay3 (View.ld c (Rect.unit (s := S256x1) ![0, 0] S256x1.size h)) = c := by rw [ldcol]; exact shapeCast_self c _
theorem col4 : k0_pay4 (View.ld c (Rect.unit (s := S256x1) ![0, 0] S256x1.size h)) = c := by rw [ldcol]; exact shapeCast_self c _
theorem col5 : k0_pay5 (View.ld c (Rect.unit (s := S256x1) ![0, 0] S256x1.size h)) = c := by rw [ldcol]; exact shapeCast_self c _
theorem col6 : k0_pay6 (View.ld c (Rect.unit (s := S256x1) ![0, 0] S256x1.size h)) = c := by rw [ldcol]; exact shapeCast_self c _
theorem col7 : k0_pay7 (View.ld c (Rect.unit (s := S256x1) ![0, 0] S256x1.size h)) = c := by rw [ldcol]; exact shapeCast_self c _
theorem col8 : k0_pay8 (View.ld c (Rect.unit (s := S256x1) ![0, 0] S256x1.size h)) = c := by rw [ldcol]; exact shapeCast_self c _
theorem col9 : k0_pay9 (View.ld c (Rect.unit (s := S256x1) ![0, 0] S256x1.size h)) = c := by rw [ldcol]; exact shapeCast_self c _
theorem col10 : k0_pay10 (View.ld c (Rect.unit (s := S256x1) ![0, 0] S256x1.size h)) = c := by rw [ldcol]; exact shapeCast_self c _
theorem col11 : k0_pay11 (View.ld c (Rect.unit (s := S256x1) ![0, 0] S256x1.size h)) = c := by rw [ldcol]; exact shapeCast_self c _
theorem col12 : k0_pay12 (View.ld c (Rect.unit (s := S256x1) ![0, 0] S256x1.size h)) = c := by rw [ldcol]; exact shapeCast_self c _
theorem col13 : k0_pay13 (View.ld c (Rect.unit (s := S256x1) ![0, 0] S256x1.size h)) = c := by rw [ldcol]; exact shapeCast_self c _
theorem col14 : k0_pay14 (View.ld c (Rect.unit (s := S256x1) ![0, 0] S256x1.size h)) = c := by rw [ldcol]; exact shapeCast_self c _
theorem col15 : k0_pay15 (View.ld c (Rect.unit (s := S256x1) ![0, 0] S256x1.size h)) = c := by rw [ldcol]; exact shapeCast_self c _

end Cols

section Piece
variable {x0 x1 x2 x3 x4 x5 x6 x7 x8 x9 x10 x11 x12 x13 : Vec Ideal S256x1 .f32} {x14 x15 : Vec Ideal S16x512 .f32}

/-- The piece of row `row` and channel `ch`, read at a piece index, is `blkG` at the block index under it: the
    piece's first two coordinates are 0, so the block index is (row, ch, lane), and the row's load reads the two
    coordinate blocks at (row, lane). -/
theorem rowPiece_blk (row ch : Nat)
    (h1 : ∀ a, (![row, 0] : Fin 2 → Nat) a + S1x512.size a ≤ S16x512.size a)
    (h3 : ∀ a, (![row, ch, 0] : Fin 3 → Nat) a + S1x1x512.size a ≤ S16x3x512.size a) (x : S1x1x512.Idx) :
    rowPiece x0 x1 x2 x3 x4 x5 x6 x7 (pick3 ch x8 x9 x10) (pick3 ch x11 x12 x13)
        (View.ld x14 (Rect.unit (s := S16x512) ![row, 0] S1x512.size h1))
        (View.ld x15 (Rect.unit (s := S16x512) ![row, 0] S1x512.size h1)) x
      = blkG x0 x1 x2 x3 x4 x5 x6 x7 x8 x9 x10 x11 x12 x13 x14 x15
          ((Rect.unit (s := S16x3x512) ![row, ch, 0] S1x1x512.size h3).emb x) := by
  have hx0 : (x 0).val = 0 := by have := (x 0).isLt; simp at this; omega
  have hx1 : (x 1).val = 0 := by have := (x 1).isLt; simp at this; omega
  generalize hy : (Rect.unit (s := S16x3x512) ![row, ch, 0] S1x1x512.size h3).emb x = y
  have e0 : (y 0).val = row := by rw [← hy]; show row + 1 * (x 0).val = row; omega
  have e1 : (y 1).val = ch := by rw [← hy]; show ch + 1 * (x 1).val = ch; omega
  have e2 : (y 2).val = (x 2).val := by rw [← hy]; show 0 + 1 * (x 2).val = (x 2).val; omega
  have ld : ∀ X : Vec Ideal S16x512 .f32,
      View.ld X (Rect.unit (s := S16x512) ![row, 0] S1x512.size h1) (ix2 0 ⟨(x 2).val, (x 2).isLt⟩)
        = X (ix2 ⟨(y 0).val, (y 0).isLt⟩ ⟨(y 2).val, (y 2).isLt⟩) := by
    intro X
    refine congrArg X (funext fun a => Fin.ext ?_)
    match a with
    | ⟨0, _⟩ => show row + 1 * 0 = (y 0).val; omega
    | ⟨1, _⟩ => show 0 + 1 * (x 2).val = (y 2).val; omega
  have l14 := ld x14
  have l15 := ld x15
  simp only [rowPiece, blkG, e1]
  exact congrArg₂ (kPixCols x0 x1 x2 x3 x4 x5 x6 x7 (pick3 ch x8 x9 x10) (pick3 ch x11 x12 x13)) l14 l15

/-- So a stored payload that is `rowPiece` of the columns as the body reads them and the row's loads is `blkG`
    under the piece's rectangle. -/
theorem piece_ok {pay : FVec Ideal S1x1x512 .f32} {ca cn : FVec Ideal S256x1 .f32} {row ch : Nat}
    {h0 : ∀ a, (![0, 0] : Fin 2 → Nat) a + S256x1.size a ≤ S256x1.size a}
    {h1 : ∀ a, (![row, 0] : Fin 2 → Nat) a + S1x512.size a ≤ S16x512.size a}
    {h3 : ∀ a, (![row, ch, 0] : Fin 3 → Nat) a + S1x1x512.size a ≤ S16x3x512.size a}
    (hpay : pay = rowPiece
      (k0_pay2 (View.ld x0 (Rect.unit (s := S256x1) ![0, 0] S256x1.size h0)))
      (k0_pay3 (View.ld x1 (Rect.unit (s := S256x1) ![0, 0] S256x1.size h0)))
      (k0_pay4 (View.ld x2 (Rect.unit (s := S256x1) ![0, 0] S256x1.size h0)))
      (k0_pay5 (View.ld x3 (Rect.unit (s := S256x1) ![0, 0] S256x1.size h0)))
      (k0_pay6 (View.ld x4 (Rect.unit (s := S256x1) ![0, 0] S256x1.size h0)))
      (k0_pay7 (View.ld x5 (Rect.unit (s := S256x1) ![0, 0] S256x1.size h0)))
      (k0_pay8 (View.ld x6 (Rect.unit (s := S256x1) ![0, 0] S256x1.size h0)))
      (k0_pay9 (View.ld x7 (Rect.unit (s := S256x1) ![0, 0] S256x1.size h0))) ca cn
      (View.ld x14 (Rect.unit (s := S16x512) ![row, 0] S1x512.size h1))
      (View.ld x15 (Rect.unit (s := S16x512) ![row, 0] S1x512.size h1)))
    (hca : ca = pick3 ch x8 x9 x10) (hcn : cn = pick3 ch x11 x12 x13) (x : S1x1x512.Idx) :
    pay x = blkG x0 x1 x2 x3 x4 x5 x6 x7 x8 x9 x10 x11 x12 x13 x14 x15
      ((Rect.unit (s := S16x3x512) ![row, ch, 0] S1x1x512.size h3).emb x) := by
  rw [hpay, hca, hcn, col2, col3, col4, col5, col6, col7, col8, col9]
  exact rowPiece_blk row ch h1 h3 x

end Piece

end Cert.KernelIdeal.BodyValue

end
-- ==== Proof.KPay.lean ====
/-
  What one launch of the kernel body leaves in its output block.

  The body runs sixteen rows; for each row it loads the row of the two coordinate blocks, broadcasts it against the
  fourteen [256, 1] columns, forms the gabors' summands on a [256, 512] tile, adds them up over the 256 gabors for each of
  the three channels, clips, and stores three [1, 1, 512] pieces.  The forty-eight pieces tile the [16, 3, 512] block, and
  each is the restriction of ONE function of the block's index: `Cert.Gabor.blkG`.

  Every stored piece has one of the forms of KPayAuxRows.lean: it is `rowPiece` of the columns and of its row's two
  loads, and so `blkG` under its rectangle (`piece_ok`).  The canon of pieces that all restrict one function is that
  function wherever a piece covers, and the pieces cover the block.
-/
import proofs.«422772_j1898375545669_3_alg».proof.Proof.Gen.KernelIdeal.Frame
import proofs.«422772_j1898375545669_3_alg».proof.Proof.SpecArr
import proofs.«422772_j1898375545669_3_alg».proof.Proof.KPayAuxRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BodyValue

open Cert.KernelIdeal Cert.KernelIdeal.Gen Cert.Gabor
open Idealize.ShloMosaic Idealize.ShloMosaic.TcCoe Idealize.ShloMosaic.ValueIdx Idealize.SL.Sem

/-- the three stores of a row of the first form (rows 0, 3, …, 12), last channel first -/
local macro "row_first" : tactic => `(tactic| (
  exact piece_ok (h3 := by decide) (shapeA2 _ _ _ _ _ _ _ _ _ _ _ _) (col12 _ _) (col15 _ _)
  exact piece_ok (h3 := by decide) (shapeA1 _ _ _ _ _ _ _ _ _ _ _ _) (col11 _ _) (col14 _ _)
  exact piece_ok (h3 := by decide) (shapeA0 _ _ _ _ _ _ _ _ _ _ _ _) (col10 _ _) (col13 _ _)))

/-- of the very last row, of the first form but for its last store, whose clip and whose cast are named apart -/
local macro "row_last" : tactic => `(tactic| (
  exact piece_ok (h3 := by decide) (shapeA2' _ _ _ _ _ _ _ _ _ _ _ _) (col12 _ _) (col15 _ _)
  exact piece_ok (h3 := by decide) (shapeA1 _ _ _ _ _ _ _ _ _ _ _ _) (col11 _ _) (col14 _ _)
  exact piece_ok (h3 := by decide) (shapeA0 _ _ _ _ _ _ _ _ _ _ _ _) (col10 _ _) (col13 _ _)))

/-- of a row of the second form (rows 1, 4, …, 13) -/
local macro "row_second" : tactic => `(tactic| (
  exact piece_ok (h3 := by decide) (shapeB2 _ _ _ _ _ _ _ _ _ _ _ _) (col12 _ _) (col15 _ _)
  exact piece_ok (h3 := by decide) (shapeB1 _ _ _ _ _ _ _ _ _ _ _ _) (col11 _ _) (col14 _ _)
  exact piece_ok (h3 := by decide) (shapeB0 _ _ _ _ _ _ _ _ _ _ _ _) (col10 _ _) (col13 _ _)))

/-- of a row of the third form (rows 2, 5, …, 14) -/
local macro "row_third" : tactic => `(tactic| (
  exact piece_ok (h3 := by decide) (shapeC2 _ _ _ _ _ _ _ _ _ _ _ _) (col12 _ _) (col15 _ _)
  exact piece_ok (h3 := by decide) (shapeC1 _ _ _ _ _ _ _ _ _ _ _ _) (col11 _ _) (col14 _ _)
  exact piece_ok (h3 := by decide) (shapeC0 _ _ _ _ _ _ _ _ _ _ _ _) (col10 _ _) (col13 _ _)))

/-- The body's output block is `blkG` of its sixteen input blocks. -/
theorem out_eq_blkG (x0 x1 x2 x3 x4 x5 x6 x7 x8 x9 x10 x11 x12 x13 : Vec Ideal S256x1 .f32) (x14 x15 : Vec Ideal S16x512 .f32) :
    out0_16 (F := Ideal) x0 x1 x2 x3 x4 x5 x6 x7 x8 x9 x10 x11 x12 x13 x14 x15
      = blkG x0 x1 x2 x3 x4 x5 x6 x7 x8 x9 x10 x11 x12 x13 x14 x15 := by
  funext y
  unfold out0_16
  refine View.canon_apply_of_pieces (Val := Elt Ideal) (S := S16x3x512) (e := .f32)
    (blkG x0 x1 x2 x3 x4 x5 x6 x7 x8 x9 x10 x11 x12 x13 x14 x15) _ ?_ y
    (cover0_16 _ _ _ _ _ _ _ _ _ _ _ _ _ _ _ _ _ _ _ _ _ _ _ _ _ _ _ _ _ _ _ _ _ _ _ _ _ _ _ _ _ _ _ _ _ _ _ _ y)
  -- one obligation per stored piece, the last store first: rows 15 down to 0, in each row channels 2, 1, 0
  repeat' (first | refine List.forall_mem_cons.2 ⟨?_, ?_⟩ | exact fun _ h => absurd h List.not_mem_nil)
  row_last
  row_third
  row_second
  row_first
  row_third
  row_second
  row_first
  row_third
  row_second
  row_first
  row_third
  row_second
  row_first
  row_third
  row_second
  row_first

end Cert.KernelIdeal.BodyValue

end
-- ==== Proof.KValue.lean ====
/-
  The kernel's run, read: what its result array holds.

  The grid has 32 points; point t is launched with the fourteen whole [256, 1] columns (their block index is (0, 0) at
  every point), rows 16t … 16t + 15 of the two coordinate grids, and writes back rows 16t … 16t + 15 of the
  [512, 3, 512] output array.  Its output block is `blkG` of its input blocks (the body), the columns hold the per-gabor
  functions of the raw parameters (the host operations before the launch), so the block is the restriction of ONE
  function of the output array's index, `arrG`: at (h, ch, w) the kernel's pixel (ch, h, w).  The 32 row blocks tile the
  array, so it ends holding `arrG`; the transpose after the launch turns it into `resG`, the pixel at (ch, h, w).
-/
import proofs.«422772_j1898375545669_3_alg».proof.Proof.Gen.KernelIdeal.Frame
import proofs.«422772_j1898375545669_3_alg».proof.Proof.SpecArr
import proofs.«422772_j1898375545669_3_alg».proof.Proof.BlockPix
import proofs.«422772_j1898375545669_3_alg».proof.Proof.KHost
import proofs.«422772_j1898375545669_3_alg».proof.Proof.KPay
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.RunValue

open Cert.KernelIdeal Cert.KernelIdeal.Gen Cert.Gabor Cert.KernelIdeal.HostValue Cert.KernelIdeal.BodyValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- the two coordinate grids on core `c` -/
abbrev argGx (c : Dev nD) : Simg.Idx → EReal := m ((c : Thread nD τ).loc main_arg0)
abbrev argGy (c : Dev nD) : Simg.Idx → EReal := m ((c : Thread nD τ).loc main_arg1)

/-- The kernel's pixel of the raw argument arrays on core `c`. -/
abbrev pix (c : Dev nD) (ch : Fin 3) (h w : Fin 512) : EReal :=
  kPix (argGx m c) (argGy m c) (argU m c) (argV m c) (argTh m c) (argRs m c) (argRf m c) (argGm m c) (argPs m c)
    (argAm m c) ch h w

/-- What the [512, 3, 512] output array ends holding: at (h, ch, w) the pixel (ch, h, w). -/
def arrG (c : Dev nD) : Shcw.Idx → EReal := fun i =>
  pix m c ⟨(i 1).val, (i 1).isLt⟩ ⟨(i 0).val, (i 0).isLt⟩ ⟨(i 2).val, (i 2).isLt⟩

/-- What the [3, 512, 512] result holds: at (ch, h, w) the pixel (ch, h, w). -/
def resG (c : Dev nD) : Schw.Idx → EReal := fun i =>
  pix m c ⟨(i 0).val, (i 0).isLt⟩ ⟨(i 1).val, (i 1).isLt⟩ ⟨(i 2).val, (i 2).isLt⟩

/-! ## The printed index maps, decided over the 32 grid points -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 3) = t.val ∧ win0_16.index t (1 : Fin 3) = 0
    ∧ win0_16.index t (2 : Fin 3) = 0 :=
  (by decide +kernel : ∀ t : Fin grid0.N, _)

/-! ## The input blocks at a point

A column window's block is the whole column at every point; a coordinate window's block at point `t` is rows
16t … 16t + 15 of its grid. -/

theorem blk0_apply (c : Dev nD) (t : Fin cfg0.N) (x : S256x1.Idx) :
    (iblk m c 0 t : Vec Ideal S256x1 .f32) x = (V (F := Ideal) m c main_v49 : S256x1.Idx → EReal) x := by
  obtain ⟨e0, e1⟩ := idx0 t
  unfold iblk
  rw [View.read_apply]
  refine congrArg (V (F := Ideal) m c main_v49 : S256x1.Idx → EReal) (funext fun a => Fin.ext ?_)
  match a with
  | ⟨0, _⟩ => show win0_0.index t (0 : Fin 2) * 256 + 1 * (x 0).val = (x 0).val; rw [e0]; omega
  | ⟨1, _⟩ => show win0_0.index t (1 : Fin 2) * 1 + 1 * (x 1).val = (x 1).val; rw [e1]; omega

theorem blk1_apply (c : Dev nD) (t : Fin cfg0.N) (x : S256x1.Idx) :
    (iblk m c 1 t : Vec Ideal S256x1 .f32) x = (V (F := Ideal) m c main_v50 : S256x1.Idx → EReal) x := by
  obtain ⟨e0, e1⟩ := idx1 t
  unfold iblk
  rw [View.read_apply]
  refine congrArg (V (F := Ideal) m c main_v50 : S256x1.Idx → EReal) (funext fun a => Fin.ext ?_)
  match a with
  | ⟨0, _⟩ => show win0_1.index t (0 : Fin 2) * 256 + 1 * (x 0).val = (x 0).val; rw [e0]; omega
  | ⟨1, _⟩ => show win0_1.index t (1 : Fin 2) * 1 + 1 * (x 1).val = (x 1).val; rw [e1]; omega

theorem blk2_apply (c : Dev nD) (t : Fin cfg0.N) (x : S256x1.Idx) :
    (iblk m c 2 t : Vec Ideal S256x1 .f32) x = (V (F := Ideal) m c main_v51 : S256x1.Idx → EReal) x := by
  obtain ⟨e0, e1⟩ := idx2 t
  unfold iblk
  rw [View.read_apply]
  refine congrArg (V (F := Ideal) m c main_v51 : S256x1.Idx → EReal) (funext fun a => Fin.ext ?_)
  match a with
  | ⟨0, _⟩ => show win0_2.index t (0 : Fin 2) * 256 + 1 * (x 0).val = (x 0).val; rw [e0]; omega
  | ⟨1, _⟩ => show win0_2.index t (1 : Fin 2) * 1 + 1 * (x 1).val = (x 1).val; rw [e1]; omega

theorem blk3_apply (c : Dev nD) (t : Fin cfg0.N) (x : S256x1.Idx) :
    (iblk m c 3 t : Vec Ideal S256x1 .f32) x = (V (F := Ideal) m c main_v52 : S256x1.Idx → EReal) x := by
  obtain ⟨e0, e1⟩ := idx3 t
  unfold iblk
  rw [View.read_apply]
  refine congrArg (V (F := Ideal) m c main_v52 : S256x1.Idx → EReal) (funext fun a => Fin.ext ?_)
  match a with
  | ⟨0, _⟩ => show win0_3.index t (0 : Fin 2) * 256 + 1 * (x 0).val = (x 0).val; rw [e0]; omega
  | ⟨1, _⟩ => show win0_3.index t (1 : Fin 2) * 1 + 1 * (x 1).val = (x 1).val; rw [e1]; omega

theorem blk4_apply (c : Dev nD) (t : Fin cfg0.N) (x : S256x1.Idx) :
    (iblk m c 4 t : Vec Ideal S256x1 .f32) x = (V (F := Ideal) m c main_v53 : S256x1.Idx → EReal) x := by
  obtain ⟨e0, e1⟩ := idx4 t
  unfold iblk
  rw [View.read_apply]
  refine congrArg (V (F := Ideal) m c main_v53 : S256x1.Idx → EReal) (funext fun a => Fin.ext ?_)
  match a with
  | ⟨0, _⟩ => show win0_4.index t (0 : Fin 2) * 256 + 1 * (x 0).val = (x 0).val; rw [e0]; omega
  | ⟨1, _⟩ => show win0_4.index t (1 : Fin 2) * 1 + 1 * (x 1).val = (x 1).val; rw [e1]; omega

theorem blk5_apply (c : Dev nD) (t : Fin cfg0.N) (x : S256x1.Idx) :
    (iblk m c 5 t : Vec Ideal S256x1 .f32) x = (V (F := Ideal) m c main_v54 : S256x1.Idx → EReal) x := by
  obtain ⟨e0, e1⟩ := idx5 t
  unfold iblk
  rw [View.read_apply]
  refine congrArg (V (F := Ideal) m c main_v54 : S256x1.Idx → EReal) (funext fun a => Fin.ext ?_)
  match a with
  | ⟨0, _⟩ => show win0_5.index t (0 : Fin 2) * 256 + 1 * (x 0).val = (x 0).val; rw [e0]; omega
  | ⟨1, _⟩ => show win0_5.index t (1 : Fin 2) * 1 + 1 * (x 1).val = (x 1).val; rw [e1]; omega

theorem blk6_apply (c : Dev nD) (t : Fin cfg0.N) (x : S256x1.Idx) :
    (iblk m c 6 t : Vec Ideal S256x1 .f32) x = (V (F := Ideal) m c main_v55 : S256x1.Idx → EReal) x := by
  obtain ⟨e0, e1⟩ := idx6 t
  unfold iblk
  rw [View.read_apply]
  refine congrArg (V (F := Ideal) m c main_v55 : S256x1.Idx → EReal) (funext fun a => Fin.ext ?_)
  match a with
  | ⟨0, _⟩ => show win0_6.index t (0 : Fin 2) * 256 + 1 * (x 0).val = (x 0).val; rw [e0]; omega
  | ⟨1, _⟩ => show win0_6.index t (1 : Fin 2) * 1 + 1 * (x 1).val = (x 1).val; rw [e1]; omega

theorem blk7_apply (c : Dev nD) (t : Fin cfg0.N) (x : S256x1.Idx) :
    (iblk m c 7 t : Vec Ideal S256x1 .f32) x = (V (F := Ideal) m c main_v56 : S256x1.Idx → EReal) x := by
  obtain ⟨e0, e1⟩ := idx7 t
  unfold iblk
  rw [View.read_apply]
  refine congrArg (V (F := Ideal) m c main_v56 : S256x1.Idx → EReal) (funext fun a => Fin.ext ?_)
  match a with
  | ⟨0, _⟩ => show win0_7.index t (0 : Fin 2) * 256 + 1 * (x 0).val = (x 0).val; rw [e0]; omega
  | ⟨1, _⟩ => show win0_7.index t (1 : Fin 2) * 1 + 1 * (x 1).val = (x 1).val; rw [e1]; omega

theorem blk8_apply (c : Dev nD) (t : Fin cfg0.N) (x : S256x1.Idx) :
    (iblk m c 8 t : Vec Ideal S256x1 .f32) x = (V (F := Ideal) m c main_v59 : S256x1.Idx → EReal) x := by
  obtain ⟨e0, e1⟩ := idx8 t
  unfold iblk
  rw [View.read_apply]
  refine congrArg (V (F := Ideal) m c main_v59 : S256x1.Idx → EReal) (funext fun a => Fin.ext ?_)
  match a with
  | ⟨0, _⟩ => show win0_8.index t (0 : Fin 2) * 256 + 1 * (x 0).val = (x 0).val; rw [e0]; omega
  | ⟨1, _⟩ => show win0_8.index t (1 : Fin 2) * 1 + 1 * (x 1).val = (x 1).val; rw [e1]; omega

theorem blk9_apply (c : Dev nD) (t : Fin cfg0.N) (x : S256x1.Idx) :
    (iblk m c 9 t : Vec Ideal S256x1 .f32) x = (V (F := Ideal) m c main_v62 : S256x1.Idx → EReal) x := by
  obtain ⟨e0, e1⟩ := idx9 t
  unfold iblk
  rw [View.read_apply]
  refine congrArg (V (F := Ideal) m c main_v62 : S256x1.Idx → EReal) (funext fun a => Fin.ext ?_)
  match a with
  | ⟨0, _⟩ => show win0_9.index t (0 : Fin 2) * 256 + 1 * (x 0).val = (x 0).val; rw [e0]; omega
  | ⟨1, _⟩ => show win0_9.index t (1 : Fin 2) * 1 + 1 * (x 1).val = (x 1).val; rw [e1]; omega

theorem blk10_apply (c : Dev nD) (t : Fin cfg0.N) (x : S256x1.Idx) :
    (iblk m c 10 t : Vec Ideal S256x1 .f32) x = (V (F := Ideal) m c main_v65 : S256x1.Idx → EReal) x := by
  obtain ⟨e0, e1⟩ := idx10 t
  unfold iblk
  rw [View.read_apply]
  refine congrArg (V (F := Ideal) m c main_v65 : S256x1.Idx → EReal) (funext fun a => Fin.ext ?_)
  match a with
  | ⟨0, _⟩ => show win0_10.index t (0 : Fin 2) * 256 + 1 * (x 0).val = (x 0).val; rw [e0]; omega
  | ⟨1, _⟩ => show win0_10.index t (1 : Fin 2) * 1 + 1 * (x 1).val = (x 1).val; rw [e1]; omega

theorem blk11_apply (c : Dev nD) (t : Fin cfg0.N) (x : S256x1.Idx) :
    (iblk m c 11 t : Vec Ideal S256x1 .f32) x = (V (F := Ideal) m c main_v68 : S256x1.Idx → EReal) x := by
  obtain ⟨e0, e1⟩ := idx11 t
  unfold iblk
  rw [View.read_apply]
  refine congrArg (V (F := Ideal) m c main_v68 : S256x1.Idx → EReal) (funext fun a => Fin.ext ?_)
  match a with
  | ⟨0, _⟩ => show win0_11.index t (0 : Fin 2) * 256 + 1 * (x 0).val = (x 0).val; rw [e0]; omega
  | ⟨1, _⟩ => show win0_11.index t (1 : Fin 2) * 1 + 1 * (x 1).val = (x 1).val; rw [e1]; omega

theorem blk12_apply (c : Dev nD) (t : Fin cfg0.N) (x : S256x1.Idx) :
    (iblk m c 12 t : Vec Ideal S256x1 .f32) x = (V (F := Ideal) m c main_v71 : S256x1.Idx → EReal) x := by
  obtain ⟨e0, e1⟩ := idx12 t
  unfold iblk
  rw [View.read_apply]
  refine congrArg (V (F := Ideal) m c main_v71 : S256x1.Idx → EReal) (funext fun a => Fin.ext ?_)
  match a with
  | ⟨0, _⟩ => show win0_12.index t (0 : Fin 2) * 256 + 1 * (x 0).val = (x 0).val; rw [e0]; omega
  | ⟨1, _⟩ => show win0_12.index t (1 : Fin 2) * 1 + 1 * (x 1).val = (x 1).val; rw [e1]; omega

theorem blk13_apply (c : Dev nD) (t : Fin cfg0.N) (x : S256x1.Idx) :
    (iblk m c 13 t : Vec Ideal S256x1 .f32) x = (V (F := Ideal) m c main_v74 : S256x1.Idx → EReal) x := by
  obtain ⟨e0, e1⟩ := idx13 t
  unfold iblk
  rw [View.read_apply]
  refine congrArg (V (F := Ideal) m c main_v74 : S256x1.Idx → EReal) (funext fun a => Fin.ext ?_)
  match a with
  | ⟨0, _⟩ => show win0_13.index t (0 : Fin 2) * 256 + 1 * (x 0).val = (x 0).val; rw [e0]; omega
  | ⟨1, _⟩ => show win0_13.index t (1 : Fin 2) * 1 + 1 * (x 1).val = (x 1).val; rw [e1]; omega

theorem blk14_apply (c : Dev nD) (t : Fin cfg0.N) (x : S16x512.Idx) (k : S512x512.Idx)
    (hk0 : (k 0).val = 16 * t.val + (x 0).val) (hk1 : (k 1).val = (x 1).val) :
    (iblk m c 14 t : Vec Ideal S16x512 .f32) x = argGx m c k := by
  obtain ⟨e0, e1⟩ := idx14 t
  unfold iblk
  rw [View.read_apply]
  refine (congrArg (V (F := Ideal) m c main_arg0 : S512x512.Idx → EReal) (funext fun a => Fin.ext ?_)).trans
    (congrFun (V_main_arg0 m c) k)
  match a with
  | ⟨0, _⟩ => show win0_14.index t (0 : Fin 2) * 16 + 1 * (x 0).val = (k 0).val; rw [e0, hk0]; omega
  | ⟨1, _⟩ => show win0_14.index t (1 : Fin 2) * 512 + 1 * (x 1).val = (k 1).val; rw [e1, hk1]; omega

theorem blk15_apply (c : Dev nD) (t : Fin cfg0.N) (x : S16x512.Idx) (k : S512x512.Idx)
    (hk0 : (k 0).val = 16 * t.val + (x 0).val) (hk1 : (k 1).val = (x 1).val) :
    (iblk m c 15 t : Vec Ideal S16x512 .f32) x = argGy m c k := by
  obtain ⟨e0, e1⟩ := idx15 t
  unfold iblk
  rw [View.read_apply]
  refine (congrArg (V (F := Ideal) m c main_arg1 : S512x512.Idx → EReal) (funext fun a => Fin.ext ?_)).trans
    (congrFun (V_main_arg1 m c) k)
  match a with
  | ⟨0, _⟩ => show win0_15.index t (0 : Fin 2) * 16 + 1 * (x 0).val = (k 0).val; rw [e0, hk0]; omega
  | ⟨1, _⟩ => show win0_15.index t (1 : Fin 2) * 512 + 1 * (x 1).val = (k 1).val; rw [e1, hk1]; omega

/-! ## What a point writes back, the cover, the array -/

/-- Point `t` writes back block `t` of `arrG`. -/
theorem flushed_eq (c : Dev nD) (t : Fin cfg0.N) :
    (dats m 0 c).flushed 16 t = ((cfg0.win 16).blk t).view.read (Elt Ideal) (arrG m c) := by
  show (cfg0.win 16).cut (grid0.coords t) ((dats m 0 c).after 16 t) = _
  rw [after0_16, out_eq_blkG]
  obtain ⟨e0, e1, e2⟩ := idx16 t
  funext j
  rw [View.read_apply]
  have hj0 : (j 0).val < 16 := (j 0).isLt
  have hj1 : (j 1).val < 3 := (j 1).isLt
  have hj2 : (j 2).val < 512 := (j 2).isLt
  have E0 : ((((cfg0.win 16).blk t).view.emb j) 0).val = 16 * t.val + (j 0).val := by
    show win0_16.index t (0 : Fin 3) * 16 + 1 * (j 0).val = _; rw [e0]; omega
  have E1 : ((((cfg0.win 16).blk t).view.emb j) 1).val = (j 1).val := by
    show win0_16.index t (1 : Fin 3) * 3 + 1 * (j 1).val = _; rw [e1]; omega
  have E2 : ((((cfg0.win 16).blk t).view.emb j) 2).val = (j 2).val := by
    show win0_16.index t (2 : Fin 3) * 512 + 1 * (j 2).val = _; rw [e2]; omega
  unfold arrG
  exact blkG_eq_kPix _ _ _ _ _ _ _ _ _ _ _ _ _ _ _ _ (argGx m c) (argGy m c) (argU m c) (argV m c) (argTh m c)
    (argRs m c) (argRf m c) (argGm m c) (argPs m c) (argAm m c)
    (fun g => (blk0_apply m c t (ix2 g 0)).trans (col_cr m c g))
    (fun g => (blk1_apply m c t (ix2 g 0)).trans (col_sr m c g))
    (fun g => (blk2_apply m c t (ix2 g 0)).trans (col_u m c g))
    (fun g => (blk3_apply m c t (ix2 g 0)).trans (col_v m c g))
    (fun g => (blk4_apply m c t (ix2 g 0)).trans (col_a m c g))
    (fun g => (blk5_apply m c t (ix2 g 0)).trans (col_b m c g))
    (fun g => (blk6_apply m c t (ix2 g 0)).trans (col_c m c g))
    (fun g => (blk7_apply m c t (ix2 g 0)).trans (col_fq m c g))
    (fun g => (blk8_apply m c t (ix2 g 0)).trans (col_ac0 m c g))
    (fun g => (blk9_apply m c t (ix2 g 0)).trans (col_ac1 m c g))
    (fun g => (blk10_apply m c t (ix2 g 0)).trans (col_ac2 m c g))
    (fun g => (blk11_apply m c t (ix2 g 0)).trans (col_nas0 m c g))
    (fun g => (blk12_apply m c t (ix2 g 0)).trans (col_nas1 m c g))
    (fun g => (blk13_apply m c t (ix2 g 0)).trans (col_nas2 m c g))
    j _ _ _ E1.symm
    (blk14_apply m c t _ _ E0 E2)
    (blk15_apply m c t _ _ E0 E2)

/-- An index of the output array is in point `t`'s block iff each coordinate is in the block's range on its axis. -/
theorem mem_blk16 (t : Fin cfg0.N) (i : S512x3x512.Idx) :
    i ∈ ((cfg0.win 16).blk t).view.set ↔ ∀ a : Fin 3, win0_16.index t a * S16x3x512.size a ≤ (i a).val
      ∧ (i a).val < win0_16.index t a * S16x3x512.size a + S16x3x512.size a := by
  show i ∈ ((View.whole main_v75).slice (win0_16.rect t)).set ↔ _
  rw [View.set_slice_whole, Rect.mem_set_unit]
  exact Iff.rfl

/-- Row `h` of the output array is written back by point `h / 16`. -/
theorem cover16 (i : S512x3x512.Idx) :
    ∃ t : Fin cfg0.N, (cfg0.win 16).flush t = true ∧ i ∈ ((cfg0.win 16).blk t).view.set := by
  have hi0 : (i 0).val < 512 := (i 0).isLt
  have hi1 : (i 1).val < 3 := (i 1).isLt
  have hi2 : (i 2).val < 512 := (i 2).isLt
  have hN : cfg0.N = 32 := N_0
  refine ⟨⟨(i 0).val / 16, by rw [hN]; omega⟩, flush0_16 _, ?_⟩
  rw [mem_blk16]
  obtain ⟨e0, e1, e2⟩ := idx16 ⟨(i 0).val / 16, by rw [hN]; omega⟩
  intro a
  match a with
  | ⟨0, _⟩ =>
    show win0_16.index _ (0 : Fin 3) * 16 ≤ (i 0).val ∧ (i 0).val < win0_16.index _ (0 : Fin 3) * 16 + 16
    rw [e0]; dsimp only; omega
  | ⟨1, _⟩ =>
    show win0_16.index _ (1 : Fin 3) * 3 ≤ (i 1).val ∧ (i 1).val < win0_16.index _ (1 : Fin 3) * 3 + 3
    rw [e1]; omega
  | ⟨2, _⟩ =>
    show win0_16.index _ (2 : Fin 3) * 512 ≤ (i 2).val ∧ (i 2).val < win0_16.index _ (2 : Fin 3) * 512 + 512
    rw [e2]; omega

/-- The output array after the run. -/
theorem final16 (c : Dev nD) : (dats m 0 c).arrAt 16 cfg0.N = arrG m c :=
  (dats m 0 c).arrAt_eq_of_cover 16 (arrG m c) (fun t _ => flushed_eq m c t) cover16

/-! ## The transpose after the launch, and the run -/

/-- The result: the output array with its first two axes exchanged. -/
theorem tail_eq (c : Dev nD) :
    Pipeline.afterTail₀ cfgs (dats m) 0 (V0 m) [hostOps1] c main_v76 = resG m c := by
  unfold Pipeline.afterTail₀
  show StableHlo.after hostOps1 _ (Proc.devRef .tc main_v76) = _
  after_results
  have e : Pipeline.withArrays (cfgs 0).spec c (V0 m c) (fun w => (dats m 0 c).arrAt w (cfgs 0).N)
      (Proc.devRef .tc main_v75) = arrG m c :=
    (Pipeline.withArrays_arr spec0 launch0.win.arr_inj c _ _ 16).trans (final16 m c)
  rw [e]
  funext i
  refine (transpose_apply _ (arrG m c) _ i (ix3 ⟨(i 1).val, (i 1).isLt⟩ ⟨(i 0).val, (i 0).isLt⟩ ⟨(i 2).val, (i 2).isLt⟩)
    (fun b => match b with | ⟨0, _⟩ => rfl | ⟨1, _⟩ => rfl | ⟨2, _⟩ => rfl)).trans ?_
  rfl

/-- The kernel's run: it ends, the result holds `resG`, the arguments are unchanged. -/
theorem run : θ_run defs (onTc (τ := τ) (main (F := Ideal))) ⟨m, fun _ => 0, ρ⟩ (fun r => ∀ c : Dev nD,
      r.2.mem ((c.tc : Thread nD τ).loc main_v76) = resG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v76 (Pipeline.mem_restRefs_of main_v76 (by decide) (by decide))).trans (tail_eq m c),
      ((h c).1 14).trans (((dats m 0 c).arrAt_in 14 rfl _).trans ((A_eq m c 14).trans (V_main_arg0 m c))),
      ((h c).1 15).trans (((dats m 0 c).arrAt_in 15 rfl _).trans ((A_eq m c 15).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.RunValue

end
-- ==== Proof.RefRead.lean ====
/-
  The reference's result at a channel and a pixel.

  The reference broadcasts every parameter against the [256, 512, 512] grid of gabors and pixels (and against
  [256, 3, 512, 512] for the channels), computes the rotated coordinates, the Gaussian envelope, the carrier and
  their product with the amplitude, adds up over the gabors from the literal 0.0 and clips.  Read one operation at a
  time at an index, every broadcast goes back to the element it copies, and the result at (ch, h, w) is
  `Cert.Gabor.rPix` of the argument arrays.

  The layers, each at explicit coordinates: the eight clipped parameters at a gabor (or a gabor and a channel); the
  cosine and sine of the orientation, the angular frequency and the phase at a gabor; the two differences, the two
  rotated coordinates, the two denominators and the Gaussian at (gabor, row, column); the carrier and the summand at
  (gabor, channel, row, column); the sum over the gabors and the last clip at (channel, row, column).
-/
import proofs.«422772_j1898375545669_3_alg».proof.Proof.Gen.ReferenceIdeal.Read
import proofs.«422772_j1898375545669_3_alg».proof.Proof.SpecArr
import Idealize.ShloMosaic.Lib.ValueIdx

noncomputable section

namespace Cert.ReferenceIdeal.RefValue

open Cert.ReferenceIdeal Cert.ReferenceIdeal.Gen Cert.ReferenceIdeal.Read Cert.Gabor
open Idealize.ShloMosaic Idealize.ShloMosaic.ValueIdx

/-! ## The pieces of the reference's summand -/

/-- The coordinate along the carrier: x_r = dx·cos θ + dy·sin θ. -/
def xrE (gx gy u v th : EReal) : EReal := (gx - unitC u) * crE th + (gy - unitC v) * srE th

/-- The coordinate across the carrier: y_r = (-dx)·sin θ + dy·cos θ. -/
def yrE (gx gy u v th : EReal) : EReal := (-(gx - unitC u)) * srE th + (gy - unitC v) * crE th

/-- The Gaussian envelope exp(-x_r² / 2σ² - y_r² / 2γ²). -/
def gaussE (gx gy u v th rs gm : EReal) : EReal :=
  Ideal.exp (Ideal.div (-(xrE gx gy u v th * xrE gx gy u v th)) (cTwo * (sgC rs * sgC rs))
    - Ideal.div (yrE gx gy u v th * yrE gx gy u v th) (cTwo * (gmC gm * gmC gm)))

/-- The reference's summand is the amplitude times the envelope times the carrier. -/
theorem rTermRaw_eq (gx gy u v th rs rf gm ps am : EReal) :
    rTermRaw gx gy u v th rs rf gm ps am
      = (amC am * gaussE gx gy u v th rs gm) * Ideal.cos (fqE rf * xrE gx gy u v th + phE ps) := rfl

section Layers

variable (x0 x1 : Simg.Idx → EReal) (x2 x3 x4 x5 x6 x7 : Sg.Idx → EReal) (x8 x9 : Sg3.Idx → EReal)

/-! ## The clipped parameters

Each clip is the minimum of the broadcast upper bound and the maximum of the broadcast lower bound and the value. -/

/-- The centre's first coordinate is clipped to [-1, 1]. -/
theorem u_at (i : Sg.Idx) : val_main_v0 (F := Ideal) x2 i = unitC (x2 i) := by
  rewrite [val_main_v0_apply, val_main_call0_v4_apply, val_main_call0_v3_apply, val_main_cst_0_apply,
    val_main_call0_v2_apply, val_main_call0_v1_apply, val_main_call0_v0_apply, val_main_cst_apply]
  rfl

/-- The centre's second coordinate is clipped to [-1, 1]. -/
theorem v_at (i : Sg.Idx) : val_main_v1 (F := Ideal) x3 i = unitC (x3 i) := by
  rewrite [val_main_v1_apply, val_main_call1_v4_apply, val_main_call1_v3_apply, val_main_cst_2_apply,
    val_main_call1_v2_apply, val_main_call1_v1_apply, val_main_call1_v0_apply, val_main_cst_1_apply]
  rfl

/-- The orientation is clipped to [-2, 2]. -/
theorem th_at (i : Sg.Idx) : val_main_v2 (F := Ideal) x4 i = thC (x4 i) := by
  rewrite [val_main_v2_apply, val_main_call2_v4_apply, val_main_call2_v3_apply, val_main_cst_4_apply,
    val_main_call2_v2_apply, val_main_call2_v1_apply, val_main_call2_v0_apply, val_main_cst_3_apply]
  rfl

/-- The width along the carrier is clipped to [0.001, 1]. -/
theorem sg_at (i : Sg.Idx) : val_main_v3 (F := Ideal) x5 i = sgC (x5 i) := by
  rewrite [val_main_v3_apply, val_main_call3_v4_apply, val_main_call3_v3_apply, val_main_cst_6_apply,
    val_main_call3_v2_apply, val_main_call3_v1_apply, val_main_call3_v0_apply, val_main_cst_5_apply]
  rfl

/-- The log-frequency is clipped to [-5, 5]. -/
theorem rf_at (i : Sg.Idx) : val_main_v4 (F := Ideal) x6 i = rfC (x6 i) := by
  rewrite [val_main_v4_apply, val_main_call4_v4_apply, val_main_call4_v3_apply, val_main_cst_8_apply,
    val_main_call4_v2_apply, val_main_call4_v1_apply, val_main_call4_v0_apply, val_main_cst_7_apply]
  rfl

/-- The width across the carrier is clipped to [0.0001, 1]. -/
theorem gm_at (i : Sg.Idx) : val_main_v5 (F := Ideal) x7 i = gmC (x7 i) := by
  rewrite [val_main_v5_apply, val_main_call5_v4_apply, val_main_call5_v3_apply, val_main_cst_10_apply,
    val_main_call5_v2_apply, val_main_call5_v1_apply, val_main_call5_v0_apply, val_main_cst_9_apply]
  rfl

/-- A channel's phase is clipped to [-1, 1]. -/
theorem ps_at (i : Sg3.Idx) : val_main_v6 (F := Ideal) x8 i = unitC (x8 i) := by
  rewrite [val_main_v6_apply, val_main_call6_v4_apply, val_main_call6_v3_apply, val_main_cst_12_apply,
    val_main_call6_v2_apply, val_main_call6_v1_apply, val_main_call6_v0_apply, val_main_cst_11_apply]
  rfl

/-- A channel's amplitude is clipped to [0, 1]. -/
theorem am_at (i : Sg3.Idx) : val_main_v7 (F := Ideal) x9 i = amC (x9 i) := by
  rewrite [val_main_v7_apply, val_main_call7_v4_apply, val_main_call7_v3_apply, val_main_cst_14_apply,
    val_main_call7_v2_apply, val_main_call7_v1_apply, val_main_call7_v0_apply, val_main_cst_13_apply]
  rfl

/-! ## Per gabor: orientation, frequency, phase -/

/-- The cosine of the orientation in radians. -/
theorem cr_at (i : Sg.Idx) : val_main_v10 (F := Ideal) x4 i = crE (x4 i) := by
  rewrite [val_main_v10_apply, val_main_v9_apply, val_main_v8_apply, val_main_cst_15_apply, th_at]
  rfl

/-- The sine of the orientation in radians. -/
theorem sr_at (i : Sg.Idx) : val_main_v12 (F := Ideal) x4 i = srE (x4 i) := by
  rewrite [val_main_v12_apply, val_main_v9_apply, val_main_v8_apply, val_main_cst_15_apply, th_at]
  rfl

/-- The angular frequency 2π / e^{log-frequency}. -/
theorem fq_at (i : Sg.Idx) : val_main_v54 (F := Ideal) x6 i = fqE (x6 i) := by
  rewrite [val_main_v54_apply, val_main_v53_apply, val_main_cst_18_apply, val_main_v52_apply, rf_at]
  rfl

/-- A channel's phase in radians. -/
theorem ph_at (i : Sg3.Idx) : val_main_v56 (F := Ideal) x8 i = phE (x8 i) := by
  rewrite [val_main_v56_apply, val_main_v55_apply, val_main_cst_19_apply, ps_at]
  rfl

/-! ## Per gabor and pixel -/

/-- The pixel's first coordinate, copied to every gabor. -/
theorem gx_at (g : Fin 256) (h w : Fin 512) :
    val_main_v16 (F := Ideal) x0 (ix3 g h w) = x0 (ix2 h w) := by
  have hi : idx_main_v14 (idx_main_v16 (ix3 g h w)) = ix2 h w := by
    funext a; match a with | ⟨0, _⟩ => rfl | ⟨1, _⟩ => rfl
  rw [val_main_v16_apply, val_main_v14_apply, hi]

/-- The pixel's second coordinate, copied to every gabor. -/
theorem gy_at (g : Fin 256) (h w : Fin 512) :
    val_main_v21 (F := Ideal) x1 (ix3 g h w) = x1 (ix2 h w) := by
  have hi : idx_main_v19 (idx_main_v21 (ix3 g h w)) = ix2 h w := by
    funext a; match a with | ⟨0, _⟩ => rfl | ⟨1, _⟩ => rfl
  rw [val_main_v21_apply, val_main_v19_apply, hi]

/-- The clipped first centre coordinate, copied to every pixel. -/
theorem ub_at (g : Fin 256) (h w : Fin 512) :
    val_main_v17 (F := Ideal) x2 (ix3 g h w) = unitC (x2 (ix1 g)) := by
  have hi : idx_main_v15 (idx_main_v17 (ix3 g h w)) = ix1 g := by
    funext a; match a with | ⟨0, _⟩ => rfl
  rw [val_main_v17_apply, val_main_v15_apply, hi, u_at]

/-- The clipped second centre coordinate, copied to every pixel. -/
theorem vb_at (g : Fin 256) (h w : Fin 512) :
    val_main_v22 (F := Ideal) x3 (ix3 g h w) = unitC (x3 (ix1 g)) := by
  have hi : idx_main_v20 (idx_main_v22 (ix3 g h w)) = ix1 g := by
    funext a; match a with | ⟨0, _⟩ => rfl
  rw [val_main_v22_apply, val_main_v20_apply, hi, v_at]

/-- The orientation's cosine, copied to every pixel (its use in x_r). -/
theorem crb_at (g : Fin 256) (h w : Fin 512) :
    val_main_v24 (F := Ideal) x4 (ix3 g h w) = crE (x4 (ix1 g)) := by
  have hi : idx_main_v11 (idx_main_v24 (ix3 g h w)) = ix1 g := by
    funext a; match a with | ⟨0, _⟩ => rfl
  rw [val_main_v24_apply, val_main_v11_apply, hi, cr_at]

/-- The orientation's sine, copied to every pixel (its use in x_r). -/
theorem srb_at (g : Fin 256) (h w : Fin 512) :
    val_main_v26 (F := Ideal) x4 (ix3 g h w) = srE (x4 (ix1 g)) := by
  have hi : idx_main_v13 (idx_main_v26 (ix3 g h w)) = ix1 g := by
    funext a; match a with | ⟨0, _⟩ => rfl
  rw [val_main_v26_apply, val_main_v13_apply, hi, sr_at]

/-- The orientation's sine, copied to every pixel (its use in y_r). -/
theorem srb'_at (g : Fin 256) (h w : Fin 512) :
    val_main_v30 (F := Ideal) x4 (ix3 g h w) = srE (x4 (ix1 g)) := by
  have hi : idx_main_v13 (idx_main_v30 (ix3 g h w)) = ix1 g := by
    funext a; match a with | ⟨0, _⟩ => rfl
  rw [val_main_v30_apply, val_main_v13_apply, hi, sr_at]

/-- The orientation's cosine, copied to every pixel (its use in y_r). -/
theorem crb'_at (g : Fin 256) (h w : Fin 512) :
    val_main_v32 (F := Ideal) x4 (ix3 g h w) = crE (x4 (ix1 g)) := by
  have hi : idx_main_v11 (idx_main_v32 (ix3 g h w)) = ix1 g := by
    funext a; match a with | ⟨0, _⟩ => rfl
  rw [val_main_v32_apply, val_main_v11_apply, hi, cr_at]

/-- dx: the pixel's first coordinate less the clipped centre's. -/
theorem dx_at (g : Fin 256) (h w : Fin 512) :
    val_main_v18 (F := Ideal) x0 x2 (ix3 g h w) = x0 (ix2 h w) - unitC (x2 (ix1 g)) := by
  rewrite [val_main_v18_apply, gx_at, ub_at]
  rfl

/-- dy: the pixel's second coordinate less the clipped centre's. -/
theorem dy_at (g : Fin 256) (h w : Fin 512) :
    val_main_v23 (F := Ideal) x1 x3 (ix3 g h w) = x1 (ix2 h w) - unitC (x3 (ix1 g)) := by
  rewrite [val_main_v23_apply, gy_at, vb_at]
  rfl

/-- x_r = dx·cos θ + dy·sin θ. -/
theorem xr_at (g : Fin 256) (h w : Fin 512) :
    val_main_v28 (F := Ideal) x0 x1 x2 x3 x4 (ix3 g h w) = xrE (x0 (ix2 h w)) (x1 (ix2 h w)) (x2 (ix1 g)) (x3 (ix1 g)) (x4 (ix1 g)) := by
  rewrite [val_main_v28_apply, val_main_v25_apply, val_main_v27_apply, dx_at, dy_at, crb_at, srb_at]
  rfl

/-- y_r = (-dx)·sin θ + dy·cos θ. -/
theorem yr_at (g : Fin 256) (h w : Fin 512) :
    val_main_v34 (F := Ideal) x0 x1 x2 x3 x4 (ix3 g h w) = yrE (x0 (ix2 h w)) (x1 (ix2 h w)) (x2 (ix1 g)) (x3 (ix1 g)) (x4 (ix1 g)) := by
  rewrite [val_main_v34_apply, val_main_v31_apply, val_main_v33_apply, val_main_v29_apply, dx_at, dy_at, srb'_at,
    crb'_at]
  rfl

/-- The first denominator 2·σ·σ, computed per gabor and copied to every pixel. -/
theorem dens_at (g : Fin 256) (h w : Fin 512) :
    val_main_v41 (F := Ideal) x5 (ix3 g h w) = cTwo * (sgC (x5 (ix1 g)) * sgC (x5 (ix1 g))) := by
  have hi : idx_main_v37 (idx_main_v41 (ix3 g h w)) = ix1 g := by
    funext a; match a with | ⟨0, _⟩ => rfl
  rewrite [val_main_v41_apply, val_main_v40_apply, val_main_v39_apply, val_main_cst_16_apply, val_main_v38_apply,
    val_main_v37_apply, hi, sg_at]
  rfl

/-- The second denominator 2·γ·γ, computed per gabor and copied to every pixel. -/
theorem deng_at (g : Fin 256) (h w : Fin 512) :
    val_main_v48 (F := Ideal) x7 (ix3 g h w) = cTwo * (gmC (x7 (ix1 g)) * gmC (x7 (ix1 g))) := by
  have hi : idx_main_v44 (idx_main_v48 (ix3 g h w)) = ix1 g := by
    funext a; match a with | ⟨0, _⟩ => rfl
  rewrite [val_main_v48_apply, val_main_v47_apply, val_main_v46_apply, val_main_cst_17_apply, val_main_v45_apply,
    val_main_v44_apply, hi, gm_at]
  rfl

/-- The Gaussian envelope. -/
theorem gauss_at (g : Fin 256) (h w : Fin 512) :
    val_main_v51 (F := Ideal) x0 x1 x2 x3 x4 x5 x7 (ix3 g h w) = gaussE (x0 (ix2 h w)) (x1 (ix2 h w)) (x2 (ix1 g)) (x3 (ix1 g)) (x4 (ix1 g)) (x5 (ix1 g)) (x7 (ix1 g)) := by
  rewrite [val_main_v51_apply, val_main_v50_apply, val_main_v42_apply, val_main_v36_apply, val_main_v35_apply,
    val_main_v49_apply, val_main_v43_apply, xr_at, yr_at, dens_at, deng_at]
  rfl

/-! ## Per gabor, channel and pixel -/

/-- The carrier cos(f·x_r + φ). -/
theorem carrier_at (g : Fin 256) (ch : Fin 3) (h w : Fin 512) :
    val_main_v65 (F := Ideal) x0 x1 x2 x3 x4 x6 x8 (ix4 g ch h w)
      = Ideal.cos (fqE (x6 (ix1 g)) * xrE (x0 (ix2 h w)) (x1 (ix2 h w)) (x2 (ix1 g)) (x3 (ix1 g)) (x4 (ix1 g)) + phE (x8 (ix2 g ch))) := by
  have h1 : idx_main_v57 (idx_main_v59 (idx_main_v62 (ix4 g ch h w))) = ix1 g := by
    funext a; match a with | ⟨0, _⟩ => rfl
  have h2 : idx_main_v58 (idx_main_v62 (ix4 g ch h w)) = ix3 g h w := by
    funext a; match a with | ⟨0, _⟩ => rfl | ⟨1, _⟩ => rfl | ⟨2, _⟩ => rfl
  have h3 : idx_main_v61 (idx_main_v63 (ix4 g ch h w)) = ix2 g ch := by
    funext a; match a with | ⟨0, _⟩ => rfl | ⟨1, _⟩ => rfl
  rewrite [val_main_v65_apply, val_main_v64_apply, val_main_v62_apply, val_main_v60_apply, val_main_v59_apply,
    val_main_v57_apply, val_main_v58_apply, val_main_v63_apply, val_main_v61_apply, h1, h2, h3, fq_at, xr_at, ph_at]
  rfl

/-- The summand: amplitude times envelope times carrier. -/
theorem term_at (g : Fin 256) (ch : Fin 3) (h w : Fin 512) :
    val_main_v71 (F := Ideal) x0 x1 x2 x3 x4 x5 x6 x7 x8 x9 (ix4 g ch h w)
      = rTermRaw (x0 (ix2 h w)) (x1 (ix2 h w)) (x2 (ix1 g)) (x3 (ix1 g)) (x4 (ix1 g)) (x5 (ix1 g)) (x6 (ix1 g))
          (x7 (ix1 g)) (x8 (ix2 g ch)) (x9 (ix2 g ch)) := by
  have h1 : idx_main_v66 (idx_main_v68 (ix4 g ch h w)) = ix2 g ch := by
    funext a; match a with | ⟨0, _⟩ => rfl | ⟨1, _⟩ => rfl
  have h2 : idx_main_v67 (idx_main_v69 (ix4 g ch h w)) = ix3 g h w := by
    funext a; match a with | ⟨0, _⟩ => rfl | ⟨1, _⟩ => rfl | ⟨2, _⟩ => rfl
  rewrite [val_main_v71_apply, val_main_v70_apply, val_main_v68_apply, val_main_v66_apply, val_main_v69_apply,
    val_main_v67_apply, h1, h2, am_at, gauss_at, carrier_at, rTermRaw_eq]
  rfl

end Layers

/-! ## The sum over the gabors and the last clip -/

/-- The reference's last stage at channel `ch`, row `h`, column `w`. -/
theorem ref_apply (x0 x1 : Simg.Idx → EReal) (x2 x3 x4 x5 x6 x7 : Sg.Idx → EReal) (x8 x9 : Sg3.Idx → EReal)
    (ch : Fin 3) (h w : Fin 512) :
    val_main_v73 (F := Ideal) x0 x1 x2 x3 x4 x5 x6 x7 x8 x9 (ix3 ch h w)
      = rPix x0 x1 x2 x3 x4 x5 x6 x7 x8 x9 ch h w := by
  have hk : ∀ g : Fin 256, idx_main_v72 (ix3 ch h w) g = ix4 g ch h w := fun g => by
    funext a; match a with | ⟨0, _⟩ => rfl | ⟨1, _⟩ => rfl | ⟨2, _⟩ => rfl | ⟨3, _⟩ => rfl
  rw [val_main_v73_apply, val_main_call8_v4_apply, val_main_call8_v3_apply, val_main_cst_22_apply,
    val_main_call8_v2_apply, val_main_call8_v1_apply, val_main_call8_v0_apply, val_main_cst_21_apply,
    val_main_v72_apply, val_main_cst_20_apply]
  have hs : (∑ g : Fin 256, val_main_v71 (F := Ideal) x0 x1 x2 x3 x4 x5 x6 x7 x8 x9 (idx_main_v72 (ix3 ch h w) g))
      = ∑ g : Fin 256, rTermRaw (x0 (ix2 h w)) (x1 (ix2 h w)) (x2 (ix1 g)) (x3 (ix1 g)) (x4 (ix1 g)) (x5 (ix1 g))
          (x6 (ix1 g)) (x7 (ix1 g)) (x8 (ix2 g ch)) (x9 (ix2 g ch)) :=
    Finset.sum_congr rfl fun g _ => by rw [hk g, term_at]
  rewrite [hs]
  rfl

end Cert.ReferenceIdeal.RefValue

end
-- ==== Proof.Finite.lean ====
/-
  Under the precondition every entry of every argument array is a real number.

  The precondition is the conjunction, array by array, of "|x| < +∞ at every index".  An extended real whose absolute
  value is below +∞ is neither +∞ nor -∞.
-/
import proofs.«422772_j1898375545669_3_alg».proof.Pre_finite_inputs
import proofs.«422772_j1898375545669_3_alg».proof.Proof.Gen.Pre_finite_inputs
import proofs.«422772_j1898375545669_3_alg».proof.Proof.SpecArr
import Idealize.ShloMosaic.Lib.ValueIdx
import Idealize.ShloMosaic.Lib.ReduceAll

noncomputable section

namespace Cert.Gabor

open Idealize.ShloMosaic Idealize.ShloMosaic.ValueIdx

/-- Every entry of `f` is (the image of) a real number. -/
def AllReal {S : Shape} (f : S.Idx → EReal) : Prop := ∀ i, ∃ r : ℝ, f i = (r : EReal)

/-- The shape of a scalar has exactly one index. -/
instance subsingleton_scalar_idx : Subsingleton Cert.Pre_finite_inputs.S_.Idx :=
  ⟨fun a b => funext fun d => d.elim0⟩

/-- The single-precision pattern `0x7F800000` (sign 0, exponent all ones, fraction 0) denotes +∞. -/
theorem inf_bits : Ideal.ofBits .f32 0x7F800000#32 = (⊤ : EReal) := by
  simp [Ideal.ofBits, Ideal.ieee]

/-- A one-bit word made from a Boolean is 1 only when the Boolean is true. -/
theorem ofBool_eq_one : ∀ {b : Bool}, BitVec.ofBool b = 1#1 → b = true := by decide

/-- An extended real with `max x (-x) < +∞` is real: `x = +∞` gives `max = +∞`, and `x = -∞` gives `-x = +∞`. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One entry: the test `|a i| < +∞` came out 1, so `a i` is real. -/
theorem elem_real {S : Shape} (a : S.Idx → EReal)
    (hb : Cert.Pre_finite_inputs.S_.BroadcastsInDim S (![] : Fin 0 → Fin S.rank)) (i : S.Idx)
    (h : cmpf (F := Ideal) (φ := .f32) .olt (Host.absf a)
      (broadcastInDim S ![] hb (constant Cert.Pre_finite_inputs.S_ .f32 0x7F800000#32)) i = 1#1) :
    ∃ r : ℝ, a i = (r : EReal) := by
  apply real_of_abs_lt_top
  have h2 : Ideal.cmp .olt (max (a i) (-(a i))) (Ideal.ofBits .f32 0x7F800000#32) = 1#1 := h
  rw [inf_bits] at h2
  exact of_decide_eq_true (ofBool_eq_one h2)

/-- One array: the conjunction over all its indices of the entry tests came out 1, so every entry is real. -/
theorem allReal_of_all {S : Shape} (a : S.Idx → EReal)
    (hb : Cert.Pre_finite_inputs.S_.BroadcastsInDim S (![] : Fin 0 → Fin S.rank))
    {axes : List (Fin S.rank)} (hr : S.ReducesTo axes Cert.Pre_finite_inputs.S_)
    (hu : 0 < Cert.Pre_finite_inputs.S_.numel)
    (h : Host.reduce IntOp.andi (cmpf (F := Ideal) (φ := .f32) .olt (Host.absf a)
        (broadcastInDim S ![] hb (constant Cert.Pre_finite_inputs.S_ .f32 0x7F800000#32)))
        (constantI Cert.Pre_finite_inputs.S_ 1 1#1) hr hu ix0 = 1#1) : AllReal a :=
  fun i => elem_real a hb i (Host.reduce_andi_all _ _ hr hu ix0 h i)

/-- The conjunction of two one-bit arrays is 1 at an index exactly when both are. -/
theorem andi_apply_eq_one {s : Shape} (x y : IVec s 1) (i : s.Idx) :
    andi x y i = 1#1 ↔ x i = 1#1 ∧ y i = 1#1 := IntOp.andi_eq_one

/-- The precondition makes all ten argument arrays real. -/
theorem allReal_of_pre (a0 a1 : Simg.Idx → EReal) (a2 a3 a4 a5 a6 a7 : Sg.Idx → EReal) (a8 a9 : Sg3.Idx → EReal)
    (h : Cert.Pre_finite_inputs.fn (F := Ideal) a0 a1 a2 a3 a4 a5 a6 a7 a8 a9 = fun _ => 1#1) :
    AllReal a0 ∧ AllReal a1 ∧ AllReal a2 ∧ AllReal a3 ∧ AllReal a4 ∧ AllReal a5 ∧ AllReal a6 ∧ AllReal a7
      ∧ AllReal a8 ∧ AllReal a9 := by
  have h0 := congrFun h ix0
  dsimp only [Cert.Pre_finite_inputs.fn, Cert.Pre_finite_inputs.fn_part1, Cert.Pre_finite_inputs.fn_part2] at h0
  simp only [andi_apply_eq_one] at h0
  obtain ⟨⟨⟨⟨⟨⟨⟨⟨⟨e0, e1⟩, e2⟩, e3⟩, e4⟩, e5⟩, e6⟩, e7⟩, e8⟩, e9⟩ := h0
  exact ⟨allReal_of_all a0 _ _ _ e0, allReal_of_all a1 _ _ _ e1, allReal_of_all a2 _ _ _ e2,
    allReal_of_all a3 _ _ _ e3, allReal_of_all a4 _ _ _ e4, allReal_of_all a5 _ _ _ e5,
    allReal_of_all a6 _ _ _ e6, allReal_of_all a7 _ _ _ e7, allReal_of_all a8 _ _ _ e8,
    allReal_of_all a9 _ _ _ e9⟩

end Cert.Gabor

end
-- ==== Proof.Algebra.lean ====
/-
  The two summands agree over the reals.

  With every raw parameter a real number, clipping keeps it real and keeps both widths positive; the cosine, sine and
  exponential of a real are real; and a quotient by a non-zero real is the product with its reciprocal.  So each
  summand is the image of a real expression, and between the two real expressions stand only
    * the expansion of -(x_r²/2σ² + y_r²/2γ²) as a·dx² + b·dx·dy + c·dy² (a polynomial identity in dx, dy, cos θ,
      sin θ and the two reciprocals), and
    * cos(α + φ) = cos α · cos φ - sin α · sin φ.
-/
import proofs.«422772_j1898375545669_3_alg».proof.Proof.Spec

noncomputable section

namespace Cert.Gabor

open Idealize.ShloMosaic

/-! ## The constants as real numbers -/

theorem cNeg1_eq : cNeg1 = ((-1 : ℝ) : EReal) := by
  simp [cNeg1, Ideal.ofBits, Ideal.ieee, -EReal.coe_mul]; norm_num
theorem cOne_eq : cOne = ((1 : ℝ) : EReal) := by
  simp [cOne, Ideal.ofBits, Ideal.ieee, -EReal.coe_mul]; norm_num
theorem cNeg2_eq : cNeg2 = ((-2 : ℝ) : EReal) := by
  simp [cNeg2, Ideal.ofBits, Ideal.ieee, -EReal.coe_mul]; norm_num
theorem cTwo_eq : cTwo = ((2 : ℝ) : EReal) := by
  simp [cTwo, Ideal.ofBits, Ideal.ieee, -EReal.coe_mul]; norm_num
theorem cSigLo_eq : cSigLo = ((8589935 / 8589934592 : ℝ) : EReal) := by
  simp [cSigLo, Ideal.ofBits, Ideal.ieee, -EReal.coe_mul]; norm_num
theorem cNeg5_eq : cNeg5 = ((-5 : ℝ) : EReal) := by
  simp [cNeg5, Ideal.ofBits, Ideal.ieee, -EReal.coe_mul]; norm_num
theorem cFive_eq : cFive = ((5 : ℝ) : EReal) := by
  simp [cFive, Ideal.ofBits, Ideal.ieee, -EReal.coe_mul]; norm_num
theorem cGamLo_eq : cGamLo = ((13743895 / 137438953472 : ℝ) : EReal) := by
  simp [cGamLo, Ideal.ofBits, Ideal.ieee, -EReal.coe_mul]; norm_num
theorem cZero_eq : cZero = ((0 : ℝ) : EReal) := by
  simp [cZero, Ideal.ofBits, Ideal.ieee]
theorem cTwoPi_eq : cTwoPi = ((13176795 / 2097152 : ℝ) : EReal) := by
  simp [cTwoPi, Ideal.ofBits, Ideal.ieee, -EReal.coe_mul]; norm_num

/-! ## Clipping a real -/

theorem coe_max' (a b : ℝ) : max (a : EReal) (b : EReal) = ((max a b : ℝ) : EReal) :=
  (EReal.coe_strictMono.monotone.map_max).symm

theorem coe_min' (a b : ℝ) : min (a : EReal) (b : EReal) = ((min a b : ℝ) : EReal) :=
  (EReal.coe_strictMono.monotone.map_min).symm

/-- Clipping a real between two reals is the real clip. -/
theorem clipE_coe (lo hi x : ℝ) : clipE (lo : EReal) (hi : EReal) (x : EReal) = ((min hi (max lo x) : ℝ) : EReal) := by
  unfold clipE; rw [coe_max', coe_min']

/-- A clip whose two bounds are positive is positive. -/
theorem clip_pos {lo hi : ℝ} (hlo : 0 < lo) (hhi : 0 < hi) (x : ℝ) : 0 < min hi (max lo x) :=
  lt_min hhi (lt_of_lt_of_le hlo (le_max_left _ _))

/-- The quotient of two reals, the divisor not zero, is the real quotient. -/
theorem div_coe_coe (x : ℝ) {y : ℝ} (h : y ≠ 0) : Ideal.div (x : EReal) (y : EReal) = ((x / y : ℝ) : EReal) := by
  rw [Ideal.div_coe h, ← EReal.coe_mul]; congr 1; ring

/-! ## The two summands as real expressions -/

/-- The kernel's summand over the reals (clipped parameters `U V TH SG RF GM PS AM`, the float `τ` for 2π). -/
def kReal (τ gx gy U V TH SG RF GM PS AM : ℝ) : ℝ :=
  let cr := Real.cos (TH * τ); let sr := Real.sin (TH * τ)
  let is := 1 / ((2 * SG) * SG); let ig := 1 / ((2 * GM) * GM)
  let a := -((cr * cr) * is + (sr * sr) * ig)
  let b := ((-2 * cr) * sr) * (is - ig)
  let c := -((sr * sr) * is + (cr * cr) * ig)
  let fq := τ / Real.exp RF
  let E := ((a * (gx - U)) * (gx - U) + (b * (gx - U)) * (gy - V)) + (c * (gy - V)) * (gy - V)
  let arg := fq * ((gx - U) * cr + (gy - V) * sr)
  (AM * Real.cos (PS * τ)) * (Real.exp E * Real.cos arg) + (-(AM * Real.sin (PS * τ))) * (Real.exp E * Real.sin arg)

/-- The reference's summand over the reals. -/
def rReal (τ gx gy U V TH SG RF GM PS AM : ℝ) : ℝ :=
  let cr := Real.cos (TH * τ); let sr := Real.sin (TH * τ)
  let fq := τ / Real.exp RF
  let xr := (gx - U) * cr + (gy - V) * sr
  let yr := (-(gx - U)) * sr + (gy - V) * cr
  (AM * Real.exp ((-(xr * xr)) / (2 * (SG * SG)) - (yr * yr) / (2 * (GM * GM)))) * Real.cos (fq * xr + PS * τ)

/-- The quadratic form expanded, and the angle-addition formula. -/
theorem kReal_eq_rReal (τ gx gy U V TH RF PS AM : ℝ) {SG GM : ℝ} (hs : 0 < SG) (hg : 0 < GM) :
    kReal τ gx gy U V TH SG RF GM PS AM = rReal τ gx gy U V TH SG RF GM PS AM := by
  unfold kReal rReal
  dsimp only
  have hs' : SG ≠ 0 := ne_of_gt hs
  have hg' : GM ≠ 0 := ne_of_gt hg
  set cr := Real.cos (TH * τ)
  set sr := Real.sin (TH * τ)
  set fq := τ / Real.exp RF
  have hE : ((-((cr * cr) * (1 / ((2 * SG) * SG)) + (sr * sr) * (1 / ((2 * GM) * GM))) * (gx - U)) * (gx - U)
        + ((((-2 * cr) * sr) * (1 / ((2 * SG) * SG) - 1 / ((2 * GM) * GM))) * (gx - U)) * (gy - V))
        + (-((sr * sr) * (1 / ((2 * SG) * SG)) + (cr * cr) * (1 / ((2 * GM) * GM))) * (gy - V)) * (gy - V)
      = (-(((gx - U) * cr + (gy - V) * sr) * ((gx - U) * cr + (gy - V) * sr))) / (2 * (SG * SG))
        - (((-(gx - U)) * sr + (gy - V) * cr) * ((-(gx - U)) * sr + (gy - V) * cr)) / (2 * (GM * GM)) := by
    field_simp
    ring
  rw [hE, Real.cos_add]
  ring

/-! ## The summands of real parameters are those real expressions -/

/-- The kernel's reciprocal of a positive real width. -/
theorem inv2_coe {s : ℝ} (hs : 0 < s) : inv2 (s : EReal) = ((1 / ((2 * s) * s) : ℝ) : EReal) := by
  unfold inv2
  rw [cOne_eq, cTwo_eq, ← EReal.coe_mul, ← EReal.coe_mul, div_coe_coe _ (ne_of_gt (by positivity))]

/-- The float 2π as a real. -/
abbrev τf : ℝ := 13176795 / 2097152

theorem unitC_coe (x : ℝ) : unitC (x : EReal) = ((min 1 (max (-1) x) : ℝ) : EReal) := by
  unfold unitC; rw [cNeg1_eq, cOne_eq, clipE_coe]
theorem thC_coe (x : ℝ) : thC (x : EReal) = ((min 2 (max (-2) x) : ℝ) : EReal) := by
  unfold thC; rw [cNeg2_eq, cTwo_eq, clipE_coe]
theorem sgC_coe (x : ℝ) : sgC (x : EReal) = ((min 1 (max (8589935 / 8589934592) x) : ℝ) : EReal) := by
  unfold sgC; rw [cSigLo_eq, cOne_eq, clipE_coe]
theorem rfC_coe (x : ℝ) : rfC (x : EReal) = ((min 5 (max (-5) x) : ℝ) : EReal) := by
  unfold rfC; rw [cNeg5_eq, cFive_eq, clipE_coe]
theorem gmC_coe (x : ℝ) : gmC (x : EReal) = ((min 1 (max (13743895 / 137438953472) x) : ℝ) : EReal) := by
  unfold gmC; rw [cGamLo_eq, cOne_eq, clipE_coe]
theorem amC_coe (x : ℝ) : amC (x : EReal) = ((min 1 (max 0 x) : ℝ) : EReal) := by
  unfold amC; rw [cZero_eq, cOne_eq, clipE_coe]

theorem crE_coe (x : ℝ) : crE (x : EReal) = ((Real.cos (min 2 (max (-2) x) * τf) : ℝ) : EReal) := by
  unfold crE; rw [thC_coe, cTwoPi_eq, ← EReal.coe_mul, Ideal.cos_coe]
theorem srE_coe (x : ℝ) : srE (x : EReal) = ((Real.sin (min 2 (max (-2) x) * τf) : ℝ) : EReal) := by
  unfold srE; rw [thC_coe, cTwoPi_eq, ← EReal.coe_mul, Ideal.sin_coe]
theorem fqE_coe (x : ℝ) : fqE (x : EReal) = ((τf / Real.exp (min 5 (max (-5) x)) : ℝ) : EReal) := by
  unfold fqE; rw [rfC_coe, cTwoPi_eq, Ideal.exp_coe, div_coe_coe _ (Real.exp_ne_zero _)]
theorem phE_coe (x : ℝ) : phE (x : EReal) = ((min 1 (max (-1) x) * τf : ℝ) : EReal) := by
  unfold phE; rw [unitC_coe, cTwoPi_eq, ← EReal.coe_mul]

/-- **The two programs' summands agree** at every real pixel coordinate and every real parameter. -/
theorem kTermRaw_eq_rTermRaw (gx gy u v th rs rf gm ps am : ℝ) :
    kTermRaw gx gy u v th rs rf gm ps am = rTermRaw gx gy u v th rs rf gm ps am := by
  have hs : (0 : ℝ) < min 1 (max (8589935 / 8589934592) rs) := clip_pos (by norm_num) one_pos rs
  have hg : (0 : ℝ) < min 1 (max (13743895 / 137438953472) gm) := clip_pos (by norm_num) one_pos gm
  have hk : kTermRaw gx gy u v th rs rf gm ps am
      = ((kReal τf gx gy (min 1 (max (-1) u)) (min 1 (max (-1) v)) (min 2 (max (-2) th))
          (min 1 (max (8589935 / 8589934592) rs)) (min 5 (max (-5) rf)) (min 1 (max (13743895 / 137438953472) gm))
          (min 1 (max (-1) ps)) (min 1 (max 0 am)) : ℝ) : EReal) := by
    unfold kTermRaw kTerm aE bE cE acE nasE kReal
    rw [crE_coe, srE_coe, unitC_coe, unitC_coe, fqE_coe, phE_coe, amC_coe, sgC_coe, gmC_coe, inv2_coe hs, inv2_coe hg,
      cNeg2_eq]
    simp only [← EReal.coe_mul, ← EReal.coe_add, ← EReal.coe_sub, ← EReal.coe_neg, Ideal.cos_coe, Ideal.sin_coe,
      Ideal.exp_coe]
  have hr : rTermRaw gx gy u v th rs rf gm ps am
      = ((rReal τf gx gy (min 1 (max (-1) u)) (min 1 (max (-1) v)) (min 2 (max (-2) th))
          (min 1 (max (8589935 / 8589934592) rs)) (min 5 (max (-5) rf)) (min 1 (max (13743895 / 137438953472) gm))
          (min 1 (max (-1) ps)) (min 1 (max 0 am)) : ℝ) : EReal) := by
    unfold rTermRaw rReal
    rw [crE_coe, srE_coe, unitC_coe, unitC_coe, fqE_coe, phE_coe, amC_coe, sgC_coe, gmC_coe, cTwo_eq]
    simp only [← EReal.coe_mul, ← EReal.coe_add, ← EReal.coe_sub, ← EReal.coe_neg]
    rw [div_coe_coe _ (ne_of_gt (by positivity)), div_coe_coe _ (ne_of_gt (by positivity))]
    simp only [← EReal.coe_mul, ← EReal.coe_add, ← EReal.coe_sub, ← EReal.coe_neg, Ideal.cos_coe, Ideal.exp_coe]
  rw [hk, hr, kReal_eq_rReal _ _ _ _ _ _ _ _ _ hs hg]

end Cert.Gabor

end
-- ==== Proof.PixEq.lean ====
/-
  The two programs' pixels agree once every argument entry is a real number.

  Both pixels clip a sum over the gabors; the reference's sum starts from the literal 0.0, which is the zero of the
  extended reals; and gabor by gabor the two summands agree over the reals (Algebra.lean).
-/
import proofs.«422772_j1898375545669_3_alg».proof.Proof.SpecArr
import proofs.«422772_j1898375545669_3_alg».proof.Proof.Algebra
import proofs.«422772_j1898375545669_3_alg».proof.Proof.Finite

noncomputable section

namespace Cert.Gabor

open Idealize.ShloMosaic Idealize.ShloMosaic.ValueIdx

/-- With real arguments the kernel's pixel is the reference's. -/
theorem kPix_eq_rPix (gx gy : Simg.Idx → EReal) (u v th rs rf gm : Sg.Idx → EReal) (ps am : Sg3.Idx → EReal)
    (hgx : AllReal gx) (hgy : AllReal gy) (hu : AllReal u) (hv : AllReal v) (hth : AllReal th) (hrs : AllReal rs)
    (hrf : AllReal rf) (hgm : AllReal gm) (hps : AllReal ps) (ham : AllReal am) (ch : Fin 3) (h w : Fin 512) :
    kPix gx gy u v th rs rf gm ps am ch h w = rPix gx gy u v th rs rf gm ps am ch h w := by
  unfold kPix rPix
  rw [cZero_eq, EReal.coe_zero, zero_add]
  refine congrArg (clipE cNeg1 cOne) (Finset.sum_congr rfl fun g _ => ?_)
  obtain ⟨a0, e0⟩ := hgx (ix2 h w)
  obtain ⟨a1, e1⟩ := hgy (ix2 h w)
  obtain ⟨a2, e2⟩ := hu (ix1 g)
  obtain ⟨a3, e3⟩ := hv (ix1 g)
  obtain ⟨a4, e4⟩ := hth (ix1 g)
  obtain ⟨a5, e5⟩ := hrs (ix1 g)
  obtain ⟨a6, e6⟩ := hrf (ix1 g)
  obtain ⟨a7, e7⟩ := hgm (ix1 g)
  obtain ⟨a8, e8⟩ := hps (ix2 g ch)
  obtain ⟨a9, e9⟩ := ham (ix2 g ch)
  rw [e0, e1, e2, e3, e4, e5, e6, e7, e8, e9]
  exact kTermRaw_eq_rTermRaw a0 a1 a2 a3 a4 a5 a6 a7 a8 a9

end Cert.Gabor

end
-- ==== Proof.lean ====
/-
  The Gabor layer: a Pallas kernel against its jnp reference, equal over the extended reals.

  For each of 256 gabors the layer evaluates a rotated anisotropic Gaussian envelope times a cosine carrier on a
  512 × 512 grid, for three channels, adds the gabors up and clips to [-1, 1].  The reference does so literally.  The
  kernel precomputes, per gabor, the coefficients of the envelope's quadratic form in (dx, dy) and the two products
  A·cos φ and -(A·sin φ) of the angle-addition formula, and then works one image row at a time on [256, 512] tiles,
  sixteen rows to a grid point.

  The three frames: the kernel's two are the generated frame certificates; the reference's is its generated run with
  the result dropped.  `preserves` has no conjunct.  `algebraic`: the kernel's result holds, at (ch, h, w), the
  kernel's pixel of the argument arrays (KValue.lean, over the body's block KPay.lean and the host columns
  KHost.lean); the reference's holds the reference's pixel (RefRead.lean); under the precondition every argument entry
  is a real number (Finite.lean), and then the two pixels agree (PixEq.lean over Algebra.lean).
-/
import proofs.«422772_j1898375545669_3_alg».proof.Defs
import proofs.«422772_j1898375545669_3_alg».proof.Proof.Gen.Kernel
import proofs.«422772_j1898375545669_3_alg».proof.Proof.Gen.Kernel.Skeleton
import proofs.«422772_j1898375545669_3_alg».proof.Proof.Gen.Kernel.Launch
import proofs.«422772_j1898375545669_3_alg».proof.Proof.Gen.Kernel.Points
import proofs.«422772_j1898375545669_3_alg».proof.Proof.Gen.Kernel.Frame
import proofs.«422772_j1898375545669_3_alg».proof.Proof.Gen.KernelIdeal
import proofs.«422772_j1898375545669_3_alg».proof.Proof.Gen.KernelIdeal.Skeleton
import proofs.«422772_j1898375545669_3_alg».proof.Proof.Gen.KernelIdeal.Launch
import proofs.«422772_j1898375545669_3_alg».proof.Proof.Gen.KernelIdeal.Points
import proofs.«422772_j1898375545669_3_alg».proof.Proof.Gen.KernelIdeal.Frame
import proofs.«422772_j1898375545669_3_alg».proof.Proof.Gen.ReferenceIdeal
import proofs.«422772_j1898375545669_3_alg».proof.Proof.Gen.Pre_finite_inputs
import proofs.«422772_j1898375545669_3_alg».proof.Proof.Gen.ReferenceIdeal.Run
import proofs.«422772_j1898375545669_3_alg».proof.Proof.Gen.ReferenceIdeal.Read
import proofs.«422772_j1898375545669_3_alg».proof.Proof.KValue
import proofs.«422772_j1898375545669_3_alg».proof.Proof.RefRead
import proofs.«422772_j1898375545669_3_alg».proof.Proof.Finite
import proofs.«422772_j1898375545669_3_alg».proof.Proof.PixEq
import Idealize.ShloMosaic.Adequacy
import Idealize.ShloMosaic.Init

noncomputable section

namespace Cert.Proof

open Idealize.ShloMosaic Idealize.ShloMosaic.ValueIdx Idealize.SL.Sem Cert.Gabor

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end; the kernel's result is its pixel function of the arguments, the reference's its own, and on real
    arguments the two are one. -/
theorem algebraic : Cert.algebraic_KernelIdeal_ReferenceIdeal := by
  intro m ρ m' ρ' hpre hagree
  refine ⟨fun c => Cert.KernelIdeal.RunValue.resG m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v73_eq]
  obtain ⟨a0, a1, a2, a3, a4, a5, a6, a7, a8, a9⟩ := hagree c
  rw [a0, a1, a2, a3, a4, a5, a6, a7, a8, a9]
  obtain ⟨f0, f1, f2, f3, f4, f5, f6, f7, f8, f9⟩ := allReal_of_pre _ _ _ _ _ _ _ _ _ _ (hpre c)
  funext i
  obtain ⟨ch, h, w, rfl⟩ : ∃ (ch : Fin 3) (h w : Fin 512), i = ix3 ch h w := ⟨i 0, i 1, i 2, eq_ix3 i⟩
  rw [Cert.ReferenceIdeal.RefValue.ref_apply]
  exact (kPix_eq_rPix _ _ _ _ _ _ _ _ _ _ f0 f1 f2 f3 f4 f5 f6 f7 f8 f9 ch h w).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
